-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S4x1024x512 : Shape := ⟨3, ![4, 1024, 512]⟩
abbrev S4x1024 : Shape := ⟨2, ![4, 1024]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S4x1024x512 : S_.BroadcastsInDim S4x1024x512 (![] : Fin 0 → Fin S4x1024x512.rank)
  reducesTo_S4x1024x512_S_d0_1_2 : S4x1024x512.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn {F : FTy → Type} [FloatOps F] (main_arg0 : FVec F S65536x512 .f32) (main_arg1 : IVec S65536 32) (main_arg2 : FVec F S4x1024x512 .f32) (main_arg3 : FVec F S4x1024 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S4x1024x512 .f32 := Host.absf main_arg2
  let main_cst_0 : FVec F S_ .f32 := constant S_ .f32 0x7F800000#32
  let main_v5 : FVec F S4x1024x512 .f32 := broadcastInDim S4x1024x512 ![] bcast_S_S4x1024x512 main_cst_0
  let main_v6 : IVec S4x1024x512 1 := cmpf .olt main_v4 main_v5
  let main_c_1 : IVec S_ 1 := constantI S_ 1 1#1
  let main_v7 : IVec S_ 1 := (fun x v => Host.reduce IntOp.andi x v reducesTo_S4x1024x512_S_d0_1_2 h_S_) main_v6 main_c_1
  let main_v8 : IVec S_ 1 := andi main_v3 main_v7
  let main_v9 : FVec F S4x1024 .f32 := Host.absf main_arg3
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  main_v13
-- ==== Kernel.lean ====
abbrev S65536x512 : Shape := ⟨2, ![65536, 512]⟩
abbrev S65536 : Shape := ⟨1, ![65536]⟩
abbrev S4x1024x512 : Shape := ⟨3, ![4, 1024, 512]⟩
abbrev S4x1024 : Shape := ⟨2, ![4, 1024]⟩
abbrev S4 : Shape := ⟨1, ![4]⟩
abbrev S512 : Shape := ⟨1, ![512]⟩
abbrev S1x512 : Shape := ⟨2, ![1, 512]⟩
abbrev S4x1 : Shape := ⟨2, ![4, 1]⟩
abbrev S4x512 : Shape := ⟨2, ![4, 512]⟩
abbrev S4x1x512 : Shape := ⟨3, ![4, 1, 512]⟩
abbrev S65536x1 : Shape := ⟨2, ![65536, 1]⟩
abbrev S65536x1024 : Shape := ⟨2, ![65536, 1024]⟩
abbrev S1024x512 : Shape := ⟨2, ![1024, 512]⟩
abbrev S1024x1 : Shape := ⟨2, ![1024, 1]⟩
abbrev S1024x1024 : Shape := ⟨2, ![1024, 1024]⟩
abbrev S1x1024x512 : Shape := ⟨3, ![1, 1024, 512]⟩
abbrev S1x1024 : Shape := ⟨2, ![1, 1024]⟩
abbrev S1024 : Shape := ⟨1, ![1024]⟩

abbrev nBuf : Space → Nat
  | .hbm => 19
  | .vmem => 8
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S4x1024x512, .f32⟩
  | .hbm, ⟨3, _⟩ => ⟨S4x1024, .f32⟩
  | .hbm, ⟨4, _⟩ => ⟨S4, .i32⟩
  | .hbm, ⟨5, _⟩ => ⟨S512, .i32⟩
  | .hbm, ⟨6, _⟩ => ⟨S1x512, .i32⟩
  | .hbm, ⟨7, _⟩ => ⟨S4x1, .i32⟩
  | .hbm, ⟨8, _⟩ => ⟨S4x512, .i32⟩
  | .hbm, ⟨9, _⟩ => ⟨S4x512, .i32⟩
  | .hbm, ⟨10, _⟩ => ⟨S4x512, .i1⟩
  | .hbm, ⟨11, _⟩ => ⟨S4x512, .f32⟩
  | .hbm, ⟨12, _⟩ => ⟨S4x1x512, .f32⟩
  | .hbm, ⟨13, _⟩ => ⟨S4x1024x512, .f32⟩
  | .hbm, ⟨14, _⟩ => ⟨S4x1024x512, .f32⟩
  | .hbm, ⟨15, _⟩ => ⟨S4x1024x512, .bf16⟩
  | .hbm, ⟨16, _⟩ => ⟨S65536x512, .bf16⟩
  | .hbm, ⟨17, _⟩ => ⟨S65536x1, .i32⟩
  | .hbm, ⟨18, _⟩ => ⟨S65536x1024, .f32⟩
  | .local _ .vmem, ⟨0, _⟩ => ⟨S1024x512, .bf16⟩
  | .local _ .vmem, ⟨1, _⟩ => ⟨S1024x512, .bf16⟩
  | .local _ .vmem, ⟨2, _⟩ => ⟨S4x1024x512, .bf16⟩
  | .local _ .vmem, ⟨3, _⟩ => ⟨S4x1024, .f32⟩
  | .local _ .vmem, ⟨4, _⟩ => ⟨S1024x1, .i32⟩
  | .local _ .vmem, ⟨5, _⟩ => ⟨S1024x1, .i32⟩
  | .local _ .vmem, ⟨6, _⟩ => ⟨S1024x1024, .f32⟩
  | .local _ .vmem, ⟨7, _⟩ => ⟨S1024x1024, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S512_S1x512_1 : S512.BroadcastsInDim S1x512 (![1] : Fin 1 → Fin S1x512.rank)
  bcast_S4_S4x1_0 : S4.BroadcastsInDim S4x1 (![0] : Fin 1 → Fin S4x1.rank)
  bcast_S1x512_S4x512_0_1 : S1x512.BroadcastsInDim S4x512 (![0, 1] : Fin 2 → Fin S4x512.rank)
  bcast_S4x1_S4x512_0_1 : S4x1.BroadcastsInDim S4x512 (![0, 1] : Fin 2 → Fin S4x512.rank)
  bcast_S4x512_S4x1x512_0_2 : S4x512.BroadcastsInDim S4x1x512 (![0, 2] : Fin 2 → Fin S4x1x512.rank)
  bcast_S4x1x512_S4x1024x512_0_1_2 : S4x1x512.BroadcastsInDim S4x1024x512 (![0, 1, 2] : Fin 3 → Fin S4x1024x512.rank)
  bitsLt_bf16_f32 : FTy.bits .bf16 < FTy.bits .f32
  shapeCasts_S65536_S65536x1 : S65536.ShapeCasts S65536x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S4x1024x512_S1x1024x512_0_0_0 : ∀ a, (![0, 0, 0] : Fin 3 → Nat) a + S1x1024x512.size a ≤ S4x1024x512.size a
  h_S1x1024x512 : 0 < S1x1024x512.numel
  shapeCasts_S1x1024x512_S1024x512 : S1x1024x512.ShapeCasts S1024x512
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S1024x1024 : S1x1024.Broadcasts S1024x1024
  natLt_1_32 : 1 < 32
  broadcasts_S1024x1_S1024x1024 : S1024x1.Broadcasts S1024x1024
  inb_S4x1024x512_S1x1024x512_1_0_0 : ∀ a, (![1, 0, 0] : Fin 3 → Nat) a + S1x1024x512.size a ≤ S4x1024x512.size a
  inb_S4x1024_S1x1024_1_0 : ∀ a, (![1, 0] : Fin 2 → Nat) a + S1x1024.size a ≤ S4x1024.size a
  inb_S4x1024x512_S1x1024x512_2_0_0 : ∀ a, (![2, 0, 0] : Fin 3 → Nat) a + S1x1024x512.size a ≤ S4x1024x512.size a
  inb_S4x1024_S1x1024_2_0 : ∀ a, (![2, 0] : Fin 2 → Nat) a + S1x1024.size a ≤ S4x1024.size a
  inb_S4x1024x512_S1x1024x512_3_0_0 : ∀ a, (![3, 0, 0] : Fin 3 → Nat) a + S1x1024x512.size a ≤ S4x1024x512.size a
  inb_S4x1024_S1x1024_3_0 : ∀ a, (![3, 0] : Fin 2 → Nat) a + S1x1024.size a ≤ S4x1024.size a
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .bf16 = 32 ∨ (Rect.block (s := S65536x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1024x512.size a ≤ S4x1024x512.size a
  hwx0_1 : ∀ i : grid0.Coords, EltTy.bits .bf16 = 32 ∨ (Rect.block (s := S4x1024x512) S4x1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x1024.size a
  hwx0_2 : ∀ i : grid0.Coords, EltTy.bits .f32 = 32 ∨ (Rect.block (s := S4x1024) S4x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S65536x1.size a
  hwx0_3 : ∀ i : grid0.Coords, EltTy.bits .i32 = 32 ∨ (Rect.block (s := S65536x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S65536x1024.size a
  hwx0_4 : ∀ i : grid0.Coords, EltTy.bits .f32 = 32 ∨ (Rect.block (s := S65536x1024) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v11) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4x1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536 : Shape := ⟨1, ![65536]⟩
abbrev S4x1024x512 : Shape := ⟨3, ![4, 1024, 512]⟩
abbrev S4x1024 : Shape := ⟨2, ![4, 1024]⟩
abbrev S4 : Shape := ⟨1, ![4]⟩
abbrev S512 : Shape := ⟨1, ![512]⟩
abbrev S1x512 : Shape := ⟨2, ![1, 512]⟩
abbrev S4x1 : Shape := ⟨2, ![4, 1]⟩
abbrev S4x512 : Shape := ⟨2, ![4, 512]⟩
abbrev S_ : Shape := ⟨0, ![]⟩
abbrev S65536x1024 : Shape := ⟨2, ![65536, 1024]⟩
abbrev S1x1024x512 : Shape := ⟨3, ![1, 1024, 512]⟩
abbrev S1024x512 : Shape := ⟨2, ![1024, 512]⟩
abbrev S1x1024 : Shape := ⟨2, ![1, 1024]⟩
abbrev S1024 : Shape := ⟨1, ![1024]⟩
abbrev S65536x1 : Shape := ⟨2, ![65536, 1]⟩

abbrev nBuf : Space → Nat
  | .hbm => 98
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S4x1024x512, .f32⟩
  | .hbm, ⟨3, _⟩ => ⟨S4x1024, .f32⟩
  | .hbm, ⟨4, _⟩ => ⟨S4, .i32⟩
  | .hbm, ⟨5, _⟩ => ⟨S512, .i32⟩
  | .hbm, ⟨6, _⟩ => ⟨S1x512, .i32⟩
  | .hbm, ⟨7, _⟩ => ⟨S4x1, .i32⟩
  | .hbm, ⟨8, _⟩ => ⟨S4x512, .i32⟩
  | .hbm, ⟨9, _⟩ => ⟨S4x512, .i32⟩
  | .hbm, ⟨10, _⟩ => ⟨S4x512, .i1⟩
  | .hbm, ⟨11, _⟩ => ⟨S4x512, .f32⟩
  | .hbm, ⟨12, _⟩ => ⟨S_, .f32⟩
  | .hbm, ⟨13, _⟩ => ⟨S65536x1024, .f32⟩
  | .hbm, ⟨14, _⟩ => ⟨S1x1024x512, .f32⟩
  | .hbm, ⟨15, _⟩ => ⟨S1024x512, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S1024x512, .f32⟩
  | .hbm, ⟨20, _⟩ => ⟨S1024x512, .f32⟩
  | .hbm, ⟨21, _⟩ => ⟨S65536x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S65536x1024, .f32⟩
  | .hbm, ⟨26, _⟩ => ⟨S65536x1024, .f32⟩
  | .hbm, ⟨27, _⟩ => ⟨S_, .i32⟩
  | .hbm, ⟨28, _⟩ => ⟨S65536, .i32⟩
  | .hbm, ⟨29, _⟩ => ⟨S65536, .i1⟩
  | .hbm, ⟨30, _⟩ => ⟨S65536, .f32⟩
  | .hbm, ⟨31, _⟩ => ⟨S65536x1, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S1x1024x512, .f32⟩
  | .hbm, ⟨36, _⟩ => ⟨S1024x512, .f32⟩
  | .hbm, ⟨37, _⟩ => ⟨S1x512, .f32⟩
  | .hbm, ⟨38, _⟩ => ⟨S512, .f32⟩
  | .hbm, ⟨39, _⟩ => ⟨S1x512, .f32⟩
  | .hbm, ⟨40, _⟩ => ⟨S1024x512, .f32⟩
  | .hbm, ⟨41, _⟩ => ⟨S1024x512, .f32⟩
  | .hbm, ⟨42, _⟩ => ⟨S65536x1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S65536x1024, .f32⟩
  | .hbm, ⟨47, _⟩ => ⟨S65536x1024, .f32⟩
  | .hbm, ⟨48, _⟩ => ⟨S_, .i32⟩
  | .hbm, ⟨49, _⟩ => ⟨S65536, .i32⟩
  | .hbm, ⟨50, _⟩ => ⟨S65536, .i1⟩
  | .hbm, ⟨51, _⟩ => ⟨S65536, .f32⟩
  | .hbm, ⟨52, _⟩ => ⟨S65536x1, .f32⟩
  | .hbm, ⟨53, _⟩ => ⟨S65536x1024, .f32⟩
  | .hbm, ⟨54, _⟩ => ⟨S65536x1024, .f32⟩
  | .hbm, ⟨55, _⟩ => ⟨S65536x1024, .f32⟩
  | .hbm, ⟨56, _⟩ => ⟨S1x1024x512, .f32⟩
  | .hbm, ⟨57, _⟩ => ⟨S1024x512, .f32⟩
  | .hbm, ⟨58, _⟩ => ⟨S1x512, .f32⟩
  | .hbm, ⟨59, _⟩ => ⟨S512, .f32⟩
  | .hbm, ⟨60, _⟩ => ⟨S1x512, .f32⟩
  | .hbm, ⟨61, _⟩ => ⟨S1024x512, .f32⟩
  | .hbm, ⟨62, _⟩ => ⟨S1024x512, .f32⟩
  | .hbm, ⟨63, _⟩ => ⟨S65536x1024, .f32⟩
  | .hbm, ⟨64, _⟩ => ⟨S1x1024, .f32⟩
  | .hbm, ⟨65, _⟩ => ⟨S1024, .f32⟩
  | .hbm, ⟨66, _⟩ => ⟨S1x1024, .f32⟩
  | .hbm, ⟨67, _⟩ => ⟨S65536x1024, .f32⟩
  | .hbm, ⟨68, _⟩ => ⟨S65536x1024, .f32⟩
  | .hbm, ⟨69, _⟩ => ⟨S_, .i32⟩
  | .hbm, ⟨70, _⟩ => ⟨S65536, .i32⟩
  | .hbm, ⟨71, _⟩ => ⟨S65536, .i1⟩
  | .hbm, ⟨72, _⟩ => ⟨S65536, .f32⟩
  | .hbm, ⟨73, _⟩ => ⟨S65536x1, .f32⟩
  | .hbm, ⟨74, _⟩ => ⟨S65536x1024, .f32⟩
  | .hbm, ⟨75, _⟩ => ⟨S65536x1024, .f32⟩
  | .hbm, ⟨76, _⟩ => ⟨S65536x1024, .f32⟩
  | .hbm, ⟨77, _⟩ => ⟨S1x1024x512, .f32⟩
  | .hbm, ⟨78, _⟩ => ⟨S1024x512, .f32⟩
  | .hbm, ⟨79, _⟩ => ⟨S1x512, .f32⟩
  | .hbm, ⟨80, _⟩ => ⟨S512, .f32⟩
  | .hbm, ⟨81, _⟩ => ⟨S1x512, .f32⟩
  | .hbm, ⟨82, _⟩ => ⟨S1024x512, .f32⟩
  | .hbm, ⟨83, _⟩ => ⟨S1024x512, .f32⟩
  | .hbm, ⟨84, _⟩ => ⟨S65536x1024, .f32⟩
  | .hbm, ⟨85, _⟩ => ⟨S1x1024, .f32⟩
  | .hbm, ⟨86, _⟩ => ⟨S1024, .f32⟩
  | .hbm, ⟨87, _⟩ => ⟨S1x1024, .f32⟩
  | .hbm, ⟨88, _⟩ => ⟨S65536x1024, .f32⟩
  | .hbm, ⟨89, _⟩ => ⟨S65536x1024, .f32⟩
  | .hbm, ⟨90, _⟩ => ⟨S_, .i32⟩
  | .hbm, ⟨91, _⟩ => ⟨S65536, .i32⟩
  | .hbm, ⟨92, _⟩ => ⟨S65536, .i1⟩
  | .hbm, ⟨93, _⟩ => ⟨S65536, .f32⟩
  | .hbm, ⟨94, _⟩ => ⟨S65536x1, .f32⟩
  | .hbm, ⟨95, _⟩ => ⟨S65536x1024, .f32⟩
  | .hbm, ⟨96, _⟩ => ⟨S65536x1024, .f32⟩
  | .hbm, ⟨97, _⟩ => ⟨S65536x1024, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_c_1 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_c_2 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_c_3 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S4_S4x1_0 : S4.BroadcastsInDim S4x1 (![0] : Fin 1 → Fin S4x1.rank)
  bcast_S1x512_S4x512_0_1 : S1x512.BroadcastsInDim S4x512 (![0, 1] : Fin 2 → Fin S4x512.rank)
  bcast_S4x1_S4x512_0_1 : S4x1.BroadcastsInDim S4x512 (![0, 1] : Fin 2 → Fin S4x512.rank)
  bcast_S_S65536x1024 : S_.BroadcastsInDim S65536x1024 (![] : Fin 0 → Fin S65536x1024.rank)
  slices_S4x1024x512_S1x1024x512_0_0_0 : S4x1024x512.Slices ![0, 0, 0] S1x1024x512
  shapeCasts_S1x1024x512_S1024x512 : S1x1024x512.ShapeCasts S1024x512
  slices_S4x512_S1x512_0_0 : S4x512.Slices ![0, 0] S1x512
  shapeCasts_S1x512_S512 : S1x512.ShapeCasts S512
  bcast_S1x512_S1024x512_0_1 : S1x512.BroadcastsInDim S1024x512 (![0, 1] : Fin 2 → Fin S1024x512.rank)
  slices_S4x1024_S1x1024_0_0 : S4x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x1024_0_1 : S65536x1.BroadcastsInDim S65536x1024 (![0, 1] : Fin 2 → Fin S65536x1024.rank)
  slices_S4x1024x512_S1x1024x512_1_0_0 : S4x1024x512.Slices ![1, 0, 0] S1x1024x512
  slices_S4x512_S1x512_1_0 : S4x512.Slices ![1, 0] S1x512
  slices_S4x1024_S1x1024_1_0 : S4x1024.Slices ![1, 0] S1x1024
  slices_S4x1024x512_S1x1024x512_2_0_0 : S4x1024x512.Slices ![2, 0, 0] S1x1024x512
  slices_S4x512_S1x512_2_0 : S4x512.Slices ![2, 0] S1x512
  slices_S4x1024_S1x1024_2_0 : S4x1024.Slices ![2, 0] S1x1024
  slices_S4x1024x512_S1x1024x512_3_0_0 : S4x1024x512.Slices ![3, 0, 0] S1x1024x512
  slices_S4x512_S1x512_3_0 : S4x512.Slices ![3, 0] S1x512
  slices_S4x1024_S1x1024_3_0 : S4x1024.Slices ![3, 0] S1x1024
  dot_S65536x512_S1024x512_S65536x1024_1_1_0_0_n_n_wf : DotDims.WF S65536x512 S1024x512 S65536x1024 [1] [1] [0] [0] [] []

variable [Facts₀]

def dot_S65536x512_S1024x512_S65536x1024_1_1_0_0_n_n : DotDims S65536x512 S1024x512 S65536x1024 where
  lhsContracting := [1]
  rhsContracting := [1]
  lhsNonContracting := [0]
  rhsNonContracting := [0]
  lhsBatch := []
  rhsBatch := []
  wf := dot_S65536x512_S1024x512_S65536x1024_1_1_0_0_n_n_wf

class Facts : Prop extends Facts₀ where

variable [Facts]
-- ==== Proof.KerHost.lean ====
/-
  The arrays the kernel's region finds, written by the host operations in front of it.

  Before the region the kernel's program builds the same feature mask as the reference (`featMask`: entry (g, k) is
  the comparison `k < size g` as a float), multiplies the weights by it (the mask's row g laid over every output
  feature of expert g), narrows the masked weights and the tokens to bf16 — the identity at the ideal instance —, and
  reshapes the declared sizes to a column. So, read at an index, the region's three staged arrays are: the tokens
  themselves; `w (g, o, k) * mask (g, k)`; and the declared size of token n at (n, 0).
-/
import proofs.«137098_j4801773437021_1_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.KerValue

open Cert.KernelIdeal Cert.KernelIdeal.Gen Idealize.ShloMosaic Idealize.ShloMosaic.TcCoe Idealize.SL.Sem
open Idealize.ShloMosaic.StableHlo Idealize.ShloMosaic.ValueIdx

section AnyInstance
variable {F : FTy → Type} [FloatOps F]
variable (m : (ℓ : Loc nD τ sig) → Buf (Elt F) ℓ)

/-- The feature mask [4, 512]: the feature number compared, signed, below the expert's input size, read as a float. -/
def featMask : FVec F S4x512 .f32 :=
  uitofp .f32 (cmpi .slt
    (broadcastInDim S4x512 ![0, 1] bcast_S1x512_S4x512_0_1 (broadcastInDim S1x512 ![1] bcast_S512_S1x512_1 (iotaInDim S512 32 0)))
    (broadcastInDim S4x512 ![0, 1] bcast_S4x1_S4x512_0_1 (broadcastInDim S4x1 ![0] bcast_S4_S4x1_0 (fun i => lit0 (S4.rowMajor i)))))

/-- The tokens as the region finds them: the argument narrowed to bf16. -/
theorem V_tokens (c : Dev nD) :
    (V m c main_v11 : S65536x512.Idx → Elt F .bf16) = truncf .bf16 (m ((c : Thread nD τ).loc main_arg0)) bitsLt_bf16_f32 := by
  dsimp only [Gen.V, Gen.hostOps0]; after_results

/-- The weights as the region finds them: the argument times the mask laid over the output features, narrowed to bf16. -/
theorem V_weights (c : Dev nD) :
    (V m c main_v10 : S4x1024x512.Idx → Elt F .bf16)
      = truncf .bf16 (mulf (m ((c : Thread nD τ).loc main_arg2))
          (broadcastInDim S4x1024x512 ![0, 1, 2] bcast_S4x1x512_S4x1024x512_0_1_2
            (broadcastInDim S4x1x512 ![0, 2] bcast_S4x512_S4x1x512_0_2 (featMask (F := F))))) bitsLt_bf16_f32 := by
  dsimp only [Gen.V, Gen.hostOps0]; after_results; rfl

/-- The declared sizes as the region finds them: the argument reshaped to a column. -/
theorem V_sizes (c : Dev nD) :
    (V m c main_v12 : S65536x1.Idx → Elt F .i32) = shapeCast S65536x1 (m ((c : Thread nD τ).loc main_arg1)) shapeCasts_S65536_S65536x1 := by
  dsimp only [Gen.V, Gen.hostOps0]; after_results; rfl

end AnyInstance

/-! ## Read at an index, at the ideal instance -/

variable (m : (ℓ : Loc nD τ sig) → Buf (Elt Ideal) ℓ)

/-- The four argument arrays on core `c`, each at its literal type. -/
abbrev argX (c : Dev nD) : FVec Ideal S65536x512 .f32 := m ((c : Thread nD τ).loc main_arg0)
abbrev argS (c : Dev nD) : IVec S65536 32 := m ((c : Thread nD τ).loc main_arg1)
abbrev argW (c : Dev nD) : FVec Ideal S4x1024x512 .f32 := m ((c : Thread nD τ).loc main_arg2)
abbrev argB (c : Dev nD) : FVec Ideal S4x1024 .f32 := m ((c : Thread nD τ).loc main_arg3)

/-- A token's feature, staged, is the argument's. -/
theorem V_tokens_apply (c : Dev nD) (n : Fin 65536) (k : Fin 512) :
    (V m c main_v11 : S65536x512.Idx → Elt Ideal .bf16) (ix2 n k) = argX m c (ix2 n k) := by
  rw [V_tokens]; rfl

/-- A staged weight is the argument's times the mask at (expert, feature). -/
theorem V_weights_apply (c : Dev nD) (g : Fin 4) (o : Fin 1024) (k : Fin 512) :
    (V m c main_v10 : S4x1024x512.Idx → Elt Ideal .bf16) (ix3 g o k)
      = argW m c (ix3 g o k) * featMask (F := Ideal) (ix2 g k) := by
  rw [V_weights]
  show argW m c (ix3 g o k) * _ = _
  refine congrArg (argW m c (ix3 g o k) * ·) ?_
  refine (broadcastInDim_apply _ _ _ (ix3 g o k) (ix3 g (0 : Fin 1) k) ?_).trans ?_
  · intro a
    match a with
    | ⟨0, _⟩ => rfl
    | ⟨1, _⟩ => rfl
    | ⟨2, _⟩ => rfl
  · refine broadcastInDim_apply _ _ _ (ix3 g (0 : Fin 1) k) (ix2 g k) ?_
    intro a
    match a with
    | ⟨0, _⟩ => rfl
    | ⟨1, _⟩ => rfl

/-- The staged size column at (n, 0) is token n's declared size. -/
theorem V_sizes_apply (c : Dev nD) (n : Fin 65536) :
    (V m c main_v12 : S65536x1.Idx → Elt Ideal .i32) (ix2 n (0 : Fin 1)) = argS m c (ix1 n) := by
  rw [V_sizes]
  refine shapeCast_apply _ _ (ix2 n (0 : Fin 1)) (ix1 n) ?_
  rw [Shape.rowMajor_val_two, Shape.rowMajor_val_one]
  show n.val = n.val * 1 + 0
  omega

end Cert.KernelIdeal.KerValue

end
-- ==== Proof.MoeSpec.lean ====
/-
  The function both programs compute, stated once over plain coordinates.

  A token row `xr` (512 features) carries a declared input size `f`. For each of four experts `g`, with size constant
  `c_g ∈ {64, 128, 256, 512}`, masked weight row `W g` (the weights of output feature `o`, already multiplied by the
  feature mask of expert `g`) and bias `B g`, the expert's term is

      gate f c_g * ((∑ k, xr k * W g k) + B g)

  where the gate is the comparison `f = c_g` converted to a float: the real 1 when the sizes agree, the real 0 when not.
  The output entry is the four terms added to the float zero, left to right, the order in which both programs add them:

      (((0 + term 0) + term 1) + term 2) + term 3.

  Nothing here uses a law of arithmetic: the kernel and the reference are shown to compute this very expression, term
  for term, so the statement holds on all extended reals.
-/
import Idealize.ShloMosaic.PureOps.Ideal
import Idealize.ShloMosaic.Lib.ValueIdx

noncomputable section

namespace Cert.Moe

open Idealize.ShloMosaic Idealize.ShloMosaic.ValueIdx

/-- The gate of one expert on one token: the one-bit comparison "declared size = expert's size", read unsigned as a
    float — the real 1 or the real 0. -/
def gate (f c : BitVec 32) : Ideal .f32 := FloatOps.uitofp (F := Ideal) .f32 (IntOp.cmpi .eq f c)

/-- One expert's contribution to one output entry: the gate times (the row's product with the expert's masked weight
    row, plus the expert's bias). -/
def expertTerm (xr : Fin 512 → EReal) (f c : BitVec 32) (Wg : Fin 512 → EReal) (Bg : EReal) : EReal :=
  gate f c * ((∑ k : Fin 512, xr k * Wg k) + Bg)

/-- One output entry: the four experts' terms added to the float zero, in the programs' order. -/
def rowOut (xr : Fin 512 → EReal) (f : BitVec 32) (W : Fin 4 → Fin 512 → EReal) (B : Fin 4 → EReal) : EReal :=
  (((Ideal.ofBits .f32 0x00000000#32 + expertTerm xr f 64#32 (W 0) (B 0)) + expertTerm xr f 128#32 (W 1) (B 1))
    + expertTerm xr f 256#32 (W 2) (B 2)) + expertTerm xr f 512#32 (W 3) (B 3)

/-- The whole result: entry (n, o) is `rowOut` of token n's row and declared size, of the weights of output feature o
    under the feature mask `mk`, and of the biases of feature o. -/
def moe (x : FVec Ideal ⟨2, ![65536, 512]⟩ .f32) (fs : IVec ⟨1, ![65536]⟩ 32) (w : FVec Ideal ⟨3, ![4, 1024, 512]⟩ .f32)
    (b : FVec Ideal ⟨2, ![4, 1024]⟩ .f32) (mk : FVec Ideal ⟨2, ![4, 512]⟩ .f32) : FVec Ideal ⟨2, ![65536, 1024]⟩ .f32 :=
  fun i => rowOut (fun k => x (ix2 (i 0) k)) (fs (ix1 (i 0))) (fun g k => w (ix3 g (i 1) k) * mk (ix2 g k))
    (fun g => b (ix2 g (i 1)))

/-- `moe` at an index written by its coordinates. -/
theorem moe_apply (x : FVec Ideal ⟨2, ![65536, 512]⟩ .f32) (fs : IVec ⟨1, ![65536]⟩ 32) (w : FVec Ideal ⟨3, ![4, 1024, 512]⟩ .f32)
    (b : FVec Ideal ⟨2, ![4, 1024]⟩ .f32) (mk : FVec Ideal ⟨2, ![4, 512]⟩ .f32) (n : Fin 65536) (o : Fin 1024) :
    moe x fs w b mk (ix2 n o) = rowOut (fun k => x (ix2 n k)) (fs (ix1 n)) (fun g k => w (ix3 g o k) * mk (ix2 g k))
      (fun g => b (ix2 g o)) := rfl

end Cert.Moe

end
-- ==== Proof.KerPayload.lean ====
import proofs.«137098_j4801773437021_1_alg».proof.Proof.Gen.KernelIdeal.Frame
import proofs.«137098_j4801773437021_1_alg».proof.Proof.MoeSpec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.KerValue

open Cert.KernelIdeal Cert.KernelIdeal.Gen Idealize.ShloMosaic Idealize.ShloMosaic.ValueIdx

/-! # The stored value of the kernel body, read at an entry

The body adds, onto the float zero block, one term per expert: the expert's gate (the size column compared with the
expert's size, converted to a float and spread along the rows) times the product of the token block with the expert's
weight slice plus the expert's bias row. Each stage is read at an entry (p, q) once, for any slice; the four experts are
instances. No law of arithmetic is used: the value at (p, q) is the specification's expression itself. -/

/-! ## Reading a unit-stride slice at an index

A slice of the bias block at row g read at (0, q) is the block at (g, q); a slice of the weight block at expert g read
at (0, q, k) is the block at (g, q, k): the rectangle's embedding adds its offset on every axis. -/

theorem ld_bias0 (x2 : Vec Ideal S4x1024 .f32) (q : Fin 1024) :
    View.ld x2 r0_3 (ix2 (0 : Fin 1) q) = x2 (ix2 (0 : Fin 4) q) := by
  show x2 (r0_3.emb (ix2 (0 : Fin 1) q)) = _
  refine congrArg x2 (funext fun a => Fin.ext ?_)
  match a with
  | ⟨0, _⟩ => rfl
  | ⟨1, _⟩ => show 0 + 1 * q.val = q.val; omega

theorem ld_bias1 (x2 : Vec Ideal S4x1024 .f32) (q : Fin 1024) :
    View.ld x2 r0_5 (ix2 (0 : Fin 1) q) = x2 (ix2 (1 : Fin 4) q) := by
  show x2 (r0_5.emb (ix2 (0 : Fin 1) q)) = _
  refine congrArg x2 (funext fun a => Fin.ext ?_)
  match a with
  | ⟨0, _⟩ => rfl
  | ⟨1, _⟩ => show 0 + 1 * q.val = q.val; omega

theorem ld_bias2 (x2 : Vec Ideal S4x1024 .f32) (q : Fin 1024) :
    View.ld x2 r0_7 (ix2 (0 : Fin 1) q) = x2 (ix2 (2 : Fin 4) q) := by
  show x2 (r0_7.emb (ix2 (0 : Fin 1) q)) = _
  refine congrArg x2 (funext fun a => Fin.ext ?_)
  match a with
  | ⟨0, _⟩ => rfl
  | ⟨1, _⟩ => show 0 + 1 * q.val = q.val; omega

theorem ld_bias3 (x2 : Vec Ideal S4x1024 .f32) (q : Fin 1024) :
    View.ld x2 r0_9 (ix2 (0 : Fin 1) q) = x2 (ix2 (3 : Fin 4) q) := by
  show x2 (r0_9.emb (ix2 (0 : Fin 1) q)) = _
  refine congrArg x2 (funext fun a => Fin.ext ?_)
  match a with
  | ⟨0, _⟩ => rfl
  | ⟨1, _⟩ => show 0 + 1 * q.val = q.val; omega

theorem ld_w0 (x1 : Vec Ideal S4x1024x512 .bf16) (q : Fin 1024) (k : Fin 512) :
    View.ld x1 r0_2 (ix3 (0 : Fin 1) q k) = x1 (ix3 (0 : Fin 4) q k) := by
  show x1 (r0_2.emb (ix3 (0 : Fin 1) q k)) = _
  refine congrArg x1 (funext fun a => Fin.ext ?_)
  match a with
  | ⟨0, _⟩ => rfl
  | ⟨1, _⟩ => show 0 + 1 * q.val = q.val; omega
  | ⟨2, _⟩ => show 0 + 1 * k.val = k.val; omega

theorem ld_w1 (x1 : Vec Ideal S4x1024x512 .bf16) (q : Fin 1024) (k : Fin 512) :
    View.ld x1 r0_4 (ix3 (0 : Fin 1) q k) = x1 (ix3 (1 : Fin 4) q k) := by
  show x1 (r0_4.emb (ix3 (0 : Fin 1) q k)) = _
  refine congrArg x1 (funext fun a => Fin.ext ?_)
  match a with
  | ⟨0, _⟩ => rfl
  | ⟨1, _⟩ => show 0 + 1 * q.val = q.val; omega
  | ⟨2, _⟩ => show 0 + 1 * k.val = k.val; omega

theorem ld_w2 (x1 : Vec Ideal S4x1024x512 .bf16) (q : Fin 1024) (k : Fin 512) :
    View.ld x1 r0_6 (ix3 (0 : Fin 1) q k) = x1 (ix3 (2 : Fin 4) q k) := by
  show x1 (r0_6.emb (ix3 (0 : Fin 1) q k)) = _
  refine congrArg x1 (funext fun a => Fin.ext ?_)
  match a with
  | ⟨0, _⟩ => rfl
  | ⟨1, _⟩ => show 0 + 1 * q.val = q.val; omega
  | ⟨2, _⟩ => show 0 + 1 * k.val = k.val; omega

theorem ld_w3 (x1 : Vec Ideal S4x1024x512 .bf16) (q : Fin 1024) (k : Fin 512) :
    View.ld x1 r0_8 (ix3 (0 : Fin 1) q k) = x1 (ix3 (3 : Fin 4) q k) := by
  show x1 (r0_8.emb (ix3 (0 : Fin 1) q k)) = _
  refine congrArg x1 (funext fun a => Fin.ext ?_)
  match a with
  | ⟨0, _⟩ => rfl
  | ⟨1, _⟩ => show 0 + 1 * q.val = q.val; omega
  | ⟨2, _⟩ => show 0 + 1 * k.val = k.val; omega

/-! ## The gate and the bias of one expert at an entry -/

/-- The size column compared with the expert's size, widened, converted and spread along the row: at entry (p, q) it is
    the gate of token p. The signed conversion of a widened bit is the unsigned conversion of the bit. -/
theorem gate_apply (x3 : Vec Ideal S1024x1 .i32) (c : BitVec 32) (p q : Fin 1024) :
    broadcastTo S1024x1024
        (sitofp (F := Ideal) .f32 (extui 32 (cmpi .eq (k0_pay3 (F := Ideal) x3) (broadcast S1024x1 c)) natLt_1_32))
        broadcasts_S1024x1_S1024x1024 (ix2 p q)
      = Cert.Moe.gate (x3 (ix2 p (0 : Fin 1))) c := by
  rw [sitofp_extui_eq_uitofp]
  refine (broadcastTo_apply _ _ (ix2 p q) (ix2 p (0 : Fin 1)) ?_).trans ?_
  · intro a
    match a with
    | ⟨0, _⟩ => rfl
    | ⟨1, _⟩ => rfl
  · unfold k0_pay3
    rw [shapeCast_self]
    rfl

/-- A bias row reshaped to a vector and back, then spread down the rows: at entry (p, q) it is the row's entry q. -/
theorem bias_apply (bl : Vec Ideal S1x1024 .f32) (p q : Fin 1024) :
    broadcastTo S1024x1024
        (shapeCast S1x1024 (shapeCast S1024 bl shapeCasts_S1x1024_S1024) shapeCasts_S1024_S1x1024)
        broadcasts_S1x1024_S1024x1024 (ix2 p q)
      = bl (ix2 (0 : Fin 1) q) := by
  refine (broadcastTo_1b_ab_apply _ _ p q).trans ?_
  refine (shapeCast_a_1a_apply _ _ (0 : Fin 1) q).trans ?_
  exact shapeCast_1a_a_apply _ _ q

/-! ## The product of one expert at an entry

The contraction takes axis 1 of both operands and keeps axis 0 of each: at result entry (p, q) and contraction position
k the left operand is read at (p, k) and the right one at (q, k). -/

theorem lhsIdx_kept (p q : Fin 1024) (k : dot_S1024x512_S1024x512_S1024x1024_1_1_0_0_n_n.contr.Idx) :
    (dot_S1024x512_S1024x512_S1024x1024_1_1_0_0_n_n.lhsIdx (ix2 p q) k (0 : Fin 2)).val = p.val := by
  unfold DotDims.lhsIdx
  rw [dif_neg (by decide), dif_pos (by decide)]
  rfl

theorem rhsIdx_kept (p q : Fin 1024) (k : dot_S1024x512_S1024x512_S1024x1024_1_1_0_0_n_n.contr.Idx) :
    (dot_S1024x512_S1024x512_S1024x1024_1_1_0_0_n_n.rhsIdx (ix2 p q) k (0 : Fin 2)).val = q.val := by
  unfold DotDims.rhsIdx
  rw [dif_neg (by decide), dif_pos (by decide)]
  rfl

theorem lhsIdx_contr (p q : Fin 1024) (k : dot_S1024x512_S1024x512_S1024x1024_1_1_0_0_n_n.contr.Idx) :
    (dot_S1024x512_S1024x512_S1024x1024_1_1_0_0_n_n.lhsIdx (ix2 p q) k (1 : Fin 2)).val = (k ⟨0, Nat.one_pos⟩).val :=
  DotDims.lhsIdx_val_of_single dot_S1024x512_S1024x512_S1024x1024_1_1_0_0_n_n rfl (ix2 p q) k

theorem rhsIdx_contr (p q : Fin 1024) (k : dot_S1024x512_S1024x512_S1024x1024_1_1_0_0_n_n.contr.Idx) :
    (dot_S1024x512_S1024x512_S1024x1024_1_1_0_0_n_n.rhsIdx (ix2 p q) k (1 : Fin 2)).val = (k ⟨0, Nat.one_pos⟩).val :=
  DotDims.rhsIdx_val_of_single dot_S1024x512_S1024x512_S1024x1024_1_1_0_0_n_n rfl (ix2 p q) k

/-- The product into the zero accumulator at entry (p, q): the sum over the 512 features of the token's entry times the
    weight slice's entry. -/
theorem prod_apply (x0 : Vec Ideal S1024x512 .bf16) (wl : Vec Ideal S1x1024x512 .bf16) (p q : Fin 1024) :
    matmul (F := Ideal) (φ₁ := .bf16) (φ₂ := .bf16) dot_S1024x512_S1024x512_S1024x1024_1_1_0_0_n_n none (k0_pay2 (F := Ideal) x0)
        (shapeCast S1024x512 wl shapeCasts_S1x1024x512_S1024x512) (constant S1024x1024 .f32 0x00000000#32) (ix2 p q)
      = ∑ k : Fin 512, x0 (ix2 p k) * wl (ix3 (0 : Fin 1) q k) := by
  show FloatOps.matmul _ _ _ _ _ _ = _
  rw [Ideal.matmul_constant_zero_apply]
  refine (Equiv.sum_comp (contrEquiv1 dot_S1024x512_S1024x512_S1024x1024_1_1_0_0_n_n 512 rfl rfl).symm _).symm.trans ?_
  refine Finset.sum_congr rfl fun k _ => ?_
  have hl : dot_S1024x512_S1024x512_S1024x1024_1_1_0_0_n_n.lhsIdx (ix2 p q)
      ((contrEquiv1 dot_S1024x512_S1024x512_S1024x1024_1_1_0_0_n_n 512 rfl rfl).symm k) = ix2 p k := by
    funext a
    refine Fin.ext ?_
    match a with
    | ⟨0, _⟩ => exact lhsIdx_kept p q _
    | ⟨1, _⟩ => exact (lhsIdx_contr p q _).trans (contrEquiv1_symm_val _ 512 rfl rfl k)
  have hr : dot_S1024x512_S1024x512_S1024x1024_1_1_0_0_n_n.rhsIdx (ix2 p q)
      ((contrEquiv1 dot_S1024x512_S1024x512_S1024x1024_1_1_0_0_n_n 512 rfl rfl).symm k) = ix2 q k := by
    funext a
    refine Fin.ext ?_
    match a with
    | ⟨0, _⟩ => exact rhsIdx_kept p q _
    | ⟨1, _⟩ => exact (rhsIdx_contr p q _).trans (contrEquiv1_symm_val _ 512 rfl rfl k)
  rw [hl, hr]
  unfold k0_pay2
  rw [shapeCast_self, shapeCast_1ab_ab_apply]

/-! ## One expert's term as the body writes it, and the whole stored value -/

/-- One expert's contribution as the kernel body computes it on whole blocks: the gate spread along the rows, times the
    product of the token block with the expert's weight slice plus the expert's bias row spread down the rows. -/
def kerTerm (x0 : Vec Ideal S1024x512 .bf16) (x3 : Vec Ideal S1024x1 .i32) (wl : Vec Ideal S1x1024x512 .bf16)
    (bl : Vec Ideal S1x1024 .f32) (c : BitVec 32) : FVec Ideal S1024x1024 .f32 :=
  mulf
    (broadcastTo S1024x1024
      (sitofp (F := Ideal) .f32 (extui 32 (cmpi .eq (k0_pay3 (F := Ideal) x3) (broadcast S1024x1 c)) natLt_1_32))
      broadcasts_S1024x1_S1024x1024)
    (addf
      (matmul (F := Ideal) (φ₁ := .bf16) (φ₂ := .bf16) dot_S1024x512_S1024x512_S1024x1024_1_1_0_0_n_n none
        (k0_pay2 (F := Ideal) x0) (shapeCast S1024x512 wl shapeCasts_S1x1024x512_S1024x512)
        (constant S1024x1024 .f32 0x00000000#32))
      (broadcastTo S1024x1024
        (shapeCast S1x1024 (shapeCast S1024 bl shapeCasts_S1x1024_S1024) shapeCasts_S1024_S1x1024)
        broadcasts_S1x1024_S1024x1024))

/-- At entry (p, q) it is the specification's term of that expert, over the slices read at their own coordinates. -/
theorem kerTerm_apply (x0 : Vec Ideal S1024x512 .bf16) (x3 : Vec Ideal S1024x1 .i32) (wl : Vec Ideal S1x1024x512 .bf16)
    (bl : Vec Ideal S1x1024 .f32) (c : BitVec 32) (p q : Fin 1024) :
    kerTerm x0 x3 wl bl c (ix2 p q)
      = Cert.Moe.expertTerm (fun k => x0 (ix2 p k)) (x3 (ix2 p (0 : Fin 1))) c (fun k => wl (ix3 (0 : Fin 1) q k))
          (bl (ix2 (0 : Fin 1) q)) := by
  unfold kerTerm
  rw [mulf_apply, addf_apply, gate_apply, bias_apply, prod_apply]
  rfl

/-- The stored value is the float zero block with the four experts' terms added to it, left to right: the body's
    bindings substituted. -/
theorem payload_split (x0 : Vec Ideal S1024x512 .bf16) (x1 : Vec Ideal S4x1024x512 .bf16) (x2 : Vec Ideal S4x1024 .f32)
    (x3 : Vec Ideal S1024x1 .i32) :
    k0_pay1 (F := Ideal) (k0_pay2 x0) (k0_pay3 x3)
        (k0_pay4 x0 x3 (View.ld x1 r0_2) (View.ld x2 r0_3) (View.ld x1 r0_4) (View.ld x2 r0_5))
        (k0_pay5 (View.ld x1 r0_6)) (View.ld x2 r0_7) (View.ld x1 r0_8) (View.ld x2 r0_9)
      = addf (addf (addf (addf (broadcast S1024x1024 (Scalar.ofBits (F := Ideal) .f32 0x00000000#32))
            (kerTerm x0 x3 (View.ld x1 r0_2) (View.ld x2 r0_3) 64#32))
            (kerTerm x0 x3 (View.ld x1 r0_4) (View.ld x2 r0_5) 128#32))
            (kerTerm x0 x3 (View.ld x1 r0_6) (View.ld x2 r0_7) 256#32))
            (kerTerm x0 x3 (View.ld x1 r0_8) (View.ld x2 r0_9) 512#32) := rfl

/-- The stored value at entry (p, q) is the specification's output entry of token p and output feature q. -/
theorem payload_apply (x0 : Vec Ideal S1024x512 .bf16) (x1 : Vec Ideal S4x1024x512 .bf16) (x2 : Vec Ideal S4x1024 .f32)
    (x3 : Vec Ideal S1024x1 .i32) (p q : Fin 1024) :
    k0_pay1 (F := Ideal) (k0_pay2 x0) (k0_pay3 x3)
        (k0_pay4 x0 x3 (View.ld x1 r0_2) (View.ld x2 r0_3) (View.ld x1 r0_4) (View.ld x2 r0_5))
        (k0_pay5 (View.ld x1 r0_6)) (View.ld x2 r0_7) (View.ld x1 r0_8) (View.ld x2 r0_9) (ix2 p q)
      = Cert.Moe.rowOut (fun k => x0 (ix2 p k)) (x3 (ix2 p (0 : Fin 1))) (fun g k => x1 (ix3 g q k)) (fun g => x2 (ix2 g q)) := by
  rw [payload_split]
  rw [addf_apply, addf_apply, addf_apply, addf_apply]
  rw [kerTerm_apply, kerTerm_apply, kerTerm_apply, kerTerm_apply]
  rw [ld_bias0, ld_bias1, ld_bias2, ld_bias3]
  rw [funext (ld_w0 x1 q), funext (ld_w1 x1 q), funext (ld_w2 x1 q), funext (ld_w3 x1 q)]
  rfl

end Cert.KernelIdeal.KerValue

end
-- ==== Proof.KerBlocks.lean ====
/-
  From the kernel's blocks to its result array.

  Grid point t stages rows 1024·t … 1024·t + 1023 of the tokens and of the declared-size column, the whole masked
  weight table and the whole bias table, and writes back rows 1024·t … 1024·t + 1023 of the result. The body's one
  store holds, at entry (p, q) of the block, `Cert.Moe.rowOut` of the staged token row p, its size word, the staged
  weights of output feature q and the biases of q (the payload read at an entry). Read through the staged arrays
  (tokens themselves; weight times mask; the size of token n at (n, 0)), that is entry (1024·t + p, q) of
  `Cert.Moe.moe` of the argument arrays. The 64 blocks tile the result, so the result array ends holding `moe`.
-/
import proofs.«137098_j4801773437021_1_alg».proof.Proof.Gen.KernelIdeal.Value
import proofs.«137098_j4801773437021_1_alg».proof.Proof.KerHost
import proofs.«137098_j4801773437021_1_alg».proof.Proof.KerPayload
import proofs.«137098_j4801773437021_1_alg».proof.Proof.MoeSpec
import Idealize.ShloMosaic.Lib.Pipeline.Value
import Idealize.ShloMosaic.Lib.ValueIdx

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

/-- The grid has 64 points. -/
theorem N64 : cfg0.N = 64 := N_0

/-- The printed index maps over the grid: the token, size and result windows move one block of rows per point; the
    weight and bias windows stay. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The staged blocks, each at its literal type, read at an entry -/

abbrev xblk (c : Dev nD) (t : Fin cfg0.N) : Vec Ideal S1024x512 .bf16 := iblk m c 0 t
abbrev wblk (c : Dev nD) (t : Fin cfg0.N) : Vec Ideal S4x1024x512 .bf16 := iblk m c 1 t
abbrev bblk (c : Dev nD) (t : Fin cfg0.N) : Vec Ideal S4x1024 .f32 := iblk m c 2 t
abbrev fblk (c : Dev nD) (t : Fin cfg0.N) : Vec Ideal S1024x1 .i32 := iblk m c 3 t

/-- Row p of point t's token block is token 1024·t + p. -/
theorem xblk_apply (c : Dev nD) (t : Fin cfg0.N) (p : Fin 1024) (k : Fin 512) (n : Fin 65536) (hn : n.val = t.val * 1024 + p.val) :
    xblk m c t (ix2 p k) = argX m c (ix2 n k) := by
  obtain ⟨e0, e1, -⟩ := idx_facts t
  refine Eq.trans ?_ (V_tokens_apply m c n k)
  unfold xblk iblk
  rw [View.read_apply]
  show V m c main_v11 _ = V m c main_v11 _
  congr 1
  funext a
  apply Fin.ext
  match a with
  | ⟨0, _⟩ => show win0_0.index t 0 * 1024 + 1 * p.val = n.val; rw [e0, hn]; omega
  | ⟨1, _⟩ => show win0_0.index t 1 * 512 + 1 * k.val = k.val; rw [e1]; omega

/-- The weight block is the whole staged table: the argument's weight times the mask. -/
theorem wblk_apply (c : Dev nD) (t : Fin cfg0.N) (g : Fin 4) (o : Fin 1024) (k : Fin 512) :
    wblk m c t (ix3 g o k) = argW m c (ix3 g o k) * featMask (F := Ideal) (ix2 g k) := by
  obtain ⟨-, -, e0, e1, e2, -⟩ := idx_facts t
  refine Eq.trans ?_ (V_weights_apply m c g o k)
  unfold wblk iblk
  rw [View.read_apply]
  show V m c main_v10 _ = V m c main_v10 _
  congr 1
  funext a
  apply Fin.ext
  match a with
  | ⟨0, _⟩ => show win0_1.index t 0 * 4 + 1 * g.val = g.val; rw [e0]; omega
  | ⟨1, _⟩ => show win0_1.index t 1 * 1024 + 1 * o.val = o.val; rw [e1]; omega
  | ⟨2, _⟩ => show win0_1.index t 2 * 512 + 1 * k.val = k.val; rw [e2]; omega

/-- The bias block is the whole bias argument. -/
theorem bblk_apply (c : Dev nD) (t : Fin cfg0.N) (g : Fin 4) (o : Fin 1024) :
    bblk m c t (ix2 g o) = argB m c (ix2 g o) := by
  obtain ⟨-, -, -, -, -, e0, e1, -⟩ := idx_facts t
  unfold bblk iblk
  rw [View.read_apply]
  show V m c main_arg3 _ = _
  rw [V_main_arg3]
  show argB m c _ = argB m c _
  congr 1
  funext a
  apply Fin.ext
  match a with
  | ⟨0, _⟩ => show win0_2.index t 0 * 4 + 1 * g.val = g.val; rw [e0]; omega
  | ⟨1, _⟩ => show win0_2.index t 1 * 1024 + 1 * o.val = o.val; rw [e1]; omega

/-- Entry (p, 0) of point t's size block is the declared size of token 1024·t + p. -/
theorem fblk_apply (c : Dev nD) (t : Fin cfg0.N) (p : Fin 1024) (n : Fin 65536) (hn : n.val = t.val * 1024 + p.val) :
    fblk m c t (ix2 p (0 : Fin 1)) = argS m c (ix1 n) := by
  obtain ⟨-, -, -, -, -, -, -, e0, e1, -⟩ := idx_facts t
  refine Eq.trans ?_ (V_sizes_apply m c n)
  unfold fblk iblk
  rw [View.read_apply]
  show V m c main_v12 _ = V m c main_v12 _
  congr 1
  funext a
  apply Fin.ext
  match a with
  | ⟨0, _⟩ => show win0_3.index t 0 * 1024 + 1 * p.val = n.val; rw [e0, hn]; omega
  | ⟨1, _⟩ => show win0_3.index t 1 * 1 + 1 * 0 = 0; rw [e1]

/-! ## What a point writes back -/

/-- The body's one store as a function of the four staged blocks. -/
def blockVal (X0 : Vec Ideal S1024x512 .bf16) (X1 : Vec Ideal S4x1024x512 .bf16) (X2 : Vec Ideal S4x1024 .f32)
    (X3 : Vec Ideal S1024x1 .i32) : Vec Ideal S1024x1024 .f32 :=
  k0_pay1 (F := Ideal) (k0_pay2 X0) (k0_pay3 X3)
    (k0_pay4 X0 X3 (View.ld X1 r0_2) (View.ld X2 r0_3) (View.ld X1 r0_4) (View.ld X2 r0_5))
    (k0_pay5 (View.ld X1 r0_6)) (View.ld X2 r0_7) (View.ld X1 r0_8) (View.ld X2 r0_9)

/-- The output block after the body is that store: it covers the whole block, and the token and size loads are of
    their whole blocks. -/
theorem out_eq (X0 : Vec Ideal S1024x512 .bf16) (X1 : Vec Ideal S4x1024x512 .bf16) (X2 : Vec Ideal S4x1024 .f32)
    (X3 : Vec Ideal S1024x1 .i32) : out0_4 X0 X1 X2 X3 = blockVal X0 X1 X2 X3 := by
  unfold out0_4 blockVal
  rw [View.canon_unit_zero hz2]
  simp only [View.ld_unit_zero (S := S1024x512) hz2, View.ld_unit_zero (S := S1024x1) hz2]

/-- Entry y of point t's stored block is the specification at the array index i that y sits at. -/
theorem blockVal_eq_moe (c : Dev nD) (t : Fin cfg0.N) (y : S1024x1024.Idx) (i : S65536x1024.Idx)
    (hi0 : (i 0).val = t.val * 1024 + (y 0).val) (hi1 : (i 1).val = (y 1).val) :
    blockVal (xblk m c t) (wblk m c t) (bblk m c t) (fblk m c t) y
      = Cert.Moe.moe (argX m c) (argS m c) (argW m c) (argB m c) (featMask (F := Ideal)) i := by
  obtain ⟨p, q, rfl⟩ : ∃ (p : Fin 1024) (q : Fin 1024), y = ix2 p q := ⟨y 0, y 1, eq_ix2 y⟩
  obtain ⟨n, o, rfl⟩ : ∃ (n : Fin 65536) (o : Fin 1024), i = ix2 n o := ⟨i 0, i 1, eq_ix2 i⟩
  have hn : n.val = t.val * 1024 + p.val := hi0
  have ho : o = q := Fin.ext hi1
  subst ho
  unfold blockVal
  rw [payload_apply, Cert.Moe.moe_apply]
  have h0 : (fun k => xblk m c t (ix2 p k)) = fun k => argX m c (ix2 n k) := funext fun k => xblk_apply m c t p k n hn
  have h1 : (fun g k => wblk m c t (ix3 g o k)) = fun g k => argW m c (ix3 g o k) * featMask (F := Ideal) (ix2 g k) :=
    funext fun g => funext fun k => wblk_apply m c t g o k
  have h2 : (fun g => bblk m c t (ix2 g o)) = fun g => argB m c (ix2 g o) := funext fun g => bblk_apply m c t g o
  rw [h0, h1, h2, fblk_apply m c t p n hn]

/-- WHAT POINT t WRITES BACK is block t of the specification of the argument arrays. -/
theorem flushed_eq (c : Dev nD) (t : Fin cfg0.N) :
    (dats m 0 c).flushed 4 t
      = ((cfg0.win 4).blk t).view.read (Elt Ideal) (Cert.Moe.moe (argX m c) (argS m c) (argW m c) (argB m c) (featMask (F := Ideal))) := by
  obtain ⟨-, -, -, -, -, -, -, -, -, e0, e1⟩ := idx_facts t
  rw [Value.flushed4]
  refine (congrArg ((cfg0.win 4).cut (grid0.coords t)) (out_eq (xblk m c t) (wblk m c t) (bblk m c t) (fblk m c t))).trans ?_
  funext j
  show blockVal (xblk m c t) (wblk m c t) (bblk m c t) (fblk m c t) j
    = Cert.Moe.moe (argX m c) (argS m c) (argW m c) (argB m c) (featMask (F := Ideal)) (((cfg0.win 4).blk t).view.emb j)
  refine blockVal_eq_moe m c t j _ ?_ ?_
  · show win0_4.index t (0 : Fin 2) * 1024 + 1 * (j 0).val = t.val * 1024 + (j 0).val
    rw [e0]; omega
  · show win0_4.index t (1 : Fin 2) * 1024 + 1 * (j 1).val = (j 1).val
    rw [e1]; omega

/-! ## The blocks tile the result -/

/-- An index of the result is in point t's block iff each coordinate is in the block's range on its axis. -/
theorem mem_blk (t : Fin cfg0.N) (i : S65536x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v13).slice (win0_4.rect t)).set ↔ _
  rw [View.set_slice_whole, Rect.mem_set_unit]
  exact Iff.rfl

/-- Row r of the result is written by point r / 1024. -/
theorem cover (i : S65536x1024.Idx) : ∃ t : Fin cfg0.N, (cfg0.win 4).flush t = true ∧ i ∈ ((cfg0.win 4).blk t).view.set := by
  have hi0 : (i 0).val < 65536 := (i 0).isLt
  have hi1 : (i 1).val < 1024 := (i 1).isLt
  have hN := N64
  let t : Fin cfg0.N := ⟨(i 0).val / 1024, by rw [hN]; omega⟩
  obtain ⟨-, -, -, -, -, -, -, -, -, e0, e1⟩ := idx_facts t
  have ht : t.val = (i 0).val / 1024 := rfl
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 1024 ≤ (i 1).val ∧ (i 1).val < win0_4.index t (1 : Fin 2) * 1024 + 1024
    rw [e1]; omega

/-- THE RESULT ARRAY after the run is the specification of the argument arrays. -/
theorem final (c : Dev nD) :
    (dats m 0 c).arrAt 4 cfg0.N = Cert.Moe.moe (argX m c) (argS m c) (argW m c) (argB m c) (featMask (F := Ideal)) :=
  (dats m 0 c).arrAt_eq_of_cover 4 _ (fun t _ => flushed_eq m c t) cover

/-- The kernel's run, read: the result at the specification of the arguments, the arguments unchanged. -/
theorem run : θ_run defs (onTc (τ := τ) (main (F := Ideal))) ⟨m, fun _ => 0, ρ⟩ fun r => ∀ c : Dev nD,
      r.2.mem ((c : Thread nD τ).loc main_v13)
        = Cert.Moe.moe (argX m c) (argS m c) (argW m c) (argB m c) (featMask (F := Ideal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KerValue

end
-- ==== Proof.RefTerm.lean ====
/-
  The reference's result, named in stages.

  The reference builds a feature mask once (`featMask`: entry (g, k) is the comparison `k < size g` as a float), and then,
  for each expert `g`, slices the expert's weights, multiplies every weight row by the mask's row `g` (`maskedW`), takes
  the product of all token rows with those masked rows and adds the expert's bias row (`expertOut`), multiplies row `n`
  by the token's gate `size n = c_g` as a float (`gateCol`), and adds the four gated products to a zero array
  (`refOut`). Each definition below is the composition of the reference's own operations for that stage, in order, so
  that the run's composed term is `refOut` of the argument arrays by unfolding.
-/
import proofs.«137098_j4801773437021_1_alg».proof.Proof.Gen.ReferenceIdeal

noncomputable section

namespace Cert.ReferenceIdeal.RefValue

open Cert.ReferenceIdeal Cert.ReferenceIdeal.Gen Idealize.ShloMosaic

variable {F : FTy → Type} [FloatOps F]

/-- The feature mask [4, 512]: the feature number `k` (an iota along the features) compared, signed, below the expert's
    input size (the table 64, 128, 256, 512 laid down the rows), the one-bit result read as a float. -/
def featMask : FVec F S4x512 .f32 :=
  uitofp .f32 (cmpi .slt
    (broadcastInDim S4x512 ![0, 1] bcast_S1x512_S4x512_0_1 (broadcastInDim S1x512 ![1] bcast_S512_S1x512_1 (iotaInDim S512 32 0)))
    (broadcastInDim S4x512 ![0, 1] bcast_S4x1_S4x512_0_1 (broadcastInDim S4x1 ![0] bcast_S4_S4x1_0 (fun i => lit0 (S4.rowMajor i)))))

/-- Expert `g`'s weights [1024, 512] with every row multiplied by row `g` of the mask. -/
def maskedW (g : Nat) (hw : S4x1024x512.Slices ![g, 0, 0] S1x1024x512) (hm : S4x512.Slices ![g, 0] S1x512)
    (w : FVec F S4x1024x512 .f32) (mk : FVec F S4x512 .f32) : FVec F S1024x512 .f32 :=
  mulf (shapeCast S1024x512 (extractStridedSlice S1x1024x512 ![g, 0, 0] w hw) shapeCasts_S1x1024x512_S1024x512)
    (broadcastInDim S1024x512 ![0, 1] bcast_S1x512_S1024x512_0_1
      (broadcastInDim S1x512 ![1] bcast_S512_S1x512_1
        (shapeCast S512 (extractStridedSlice S1x512 ![g, 0] mk hm) shapeCasts_S1x512_S512)))

/-- Expert `g`'s linear map on every token: the tokens' rows against the masked weight rows (contracting the
    features), plus the expert's bias row laid along every token. -/
def expertOut (g : Nat) (hw : S4x1024x512.Slices ![g, 0, 0] S1x1024x512) (hm : S4x512.Slices ![g, 0] S1x512)
    (hb : S4x1024.Slices ![g, 0] S1x1024)
    (x : FVec F S65536x512 .f32) (w : FVec F S4x1024x512 .f32) (b : FVec F S4x1024 .f32) (mk : FVec F S4x512 .f32) :
    FVec F S65536x1024 .f32 :=
  addf (Host.dotGeneral dot_S65536x512_S1024x512_S65536x1024_1_1_0_0_n_n none x (maskedW g hw hm w mk))
    (broadcastInDim S65536x1024 ![0, 1] bcast_S1x1024_S65536x1024_0_1
      (broadcastInDim S1x1024 ![1] bcast_S1024_S1x1024_1
        (shapeCast S1024 (extractStridedSlice S1x1024 ![g, 0] b hb) shapeCasts_S1x1024_S1024)))

/-- The gate of the expert whose size is `c`, laid along every output feature: token `n`'s declared size compared
    with `c`, the one-bit result read as a float. -/
def gateCol (c : BitVec 32) (fs : IVec S65536 32) : FVec F S65536x1024 .f32 :=
  broadcastInDim S65536x1024 ![0, 1] bcast_S65536x1_S65536x1024_0_1
    (broadcastInDim S65536x1 ![0] bcast_S65536_S65536x1_0
      (uitofp .f32 (cmpi .eq fs (broadcastInDim S65536 ![] bcast_S_S65536 (constantI S_ 32 c)))))

/-- The reference's result: the four gated expert outputs added, in order, to the zero array. -/
def refOut (x : FVec F S65536x512 .f32) (fs : IVec S65536 32) (w : FVec F S4x1024x512 .f32) (b : FVec F S4x1024 .f32) :
    FVec F S65536x1024 .f32 :=
  addf (addf (addf (addf (broadcastInDim S65536x1024 ![] bcast_S_S65536x1024 (constant S_ .f32 0x00000000#32))
      (mulf (gateCol 64#32 fs) (expertOut 0 slices_S4x1024x512_S1x1024x512_0_0_0 slices_S4x512_S1x512_0_0 slices_S4x1024_S1x1024_0_0 x w b featMask)))
      (mulf (gateCol 128#32 fs) (expertOut 1 slices_S4x1024x512_S1x1024x512_1_0_0 slices_S4x512_S1x512_1_0 slices_S4x1024_S1x1024_1_0 x w b featMask)))
      (mulf (gateCol 256#32 fs) (expertOut 2 slices_S4x1024x512_S1x1024x512_2_0_0 slices_S4x512_S1x512_2_0 slices_S4x1024_S1x1024_2_0 x w b featMask)))
      (mulf (gateCol 512#32 fs) (expertOut 3 slices_S4x1024x512_S1x1024x512_3_0_0 slices_S4x512_S1x512_3_0 slices_S4x1024_S1x1024_3_0 x w b featMask))

end Cert.ReferenceIdeal.RefValue

end
-- ==== Proof.RefRun.lean ====
/-
  The reference program's run, read back.

  The reference's @main is a straight line of 94 tensor operations and the return. Below it is restated as a list
  (`ops0` for the first 60 operations, `ops1` for the remaining 34), the program is shown equal to the list run in
  order, and the run theorem of straight-line programs gives, on every device, that each buffer ends at the fold of the
  operations' results over the launch contents. Reading the fold at the result buffer composes the operations' functions
  into one term of the four argument arrays; that term is, stage for stage, `RefValue.refOut`. The argument buffers are
  written by no operation and keep their contents.
-/
import proofs.«137098_j4801773437021_1_alg».proof.Proof.Gen.ReferenceIdeal
import proofs.«137098_j4801773437021_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first 60 operations: the feature mask, the zero array, the first two experts' gated outputs added on, and the
    third expert's product of the token rows with its masked weights. -/
abbrev ops0 : List (HloOp τ sig (Elt F)) :=
  [
    nullary main_c (fun i => lit0 (S4.rowMajor i)),
    nullary main_v0 (iotaInDim S512 32 0),
    unary main_v0 main_v1 (broadcastInDim S1x512 ![1] bcast_S512_S1x512_1 : (⟨S512, .i32⟩ : BufTy).Contents (Elt F) → (⟨S1x512, .i32⟩ : BufTy).Contents (Elt F)),
    unary main_c main_v2 (broadcastInDim S4x1 ![0] bcast_S4_S4x1_0 : (⟨S4, .i32⟩ : BufTy).Contents (Elt F) → (⟨S4x1, .i32⟩ : BufTy).Contents (Elt F)),
    unary main_v1 main_v3 (broadcastInDim S4x512 ![0, 1] bcast_S1x512_S4x512_0_1 : (⟨S1x512, .i32⟩ : BufTy).Contents (Elt F) → (⟨S4x512, .i32⟩ : BufTy).Contents (Elt F)),
    unary main_v2 main_v4 (broadcastInDim S4x512 ![0, 1] bcast_S4x1_S4x512_0_1 : (⟨S4x1, .i32⟩ : BufTy).Contents (Elt F) → (⟨S4x512, .i32⟩ : BufTy).Contents (Elt F)),
    binary main_v3 main_v4 main_v5 (cmpi .slt : (⟨S4x512, .i32⟩ : BufTy).Contents (Elt F) → (⟨S4x512, .i32⟩ : BufTy).Contents (Elt F) → (⟨S4x512, .i1⟩ : BufTy).Contents (Elt F)),
    unary main_v5 main_v6 (uitofp .f32 : (⟨S4x512, .i1⟩ : BufTy).Contents (Elt F) → (⟨S4x512, .f32⟩ : BufTy).Contents (Elt F)),
    nullary main_cst (constant S_ .f32 0x00000000#32),
    unary main_cst main_v7 (broadcastInDim S65536x1024 ![] bcast_S_S65536x1024 : (⟨S_, .f32⟩ : BufTy).Contents (Elt F) → (⟨S65536x1024, .f32⟩ : BufTy).Contents (Elt F)),
    unary main_arg2 main_v8 ((extractStridedSlice S1x1024x512 ![0, 0, 0] · slices_S4x1024x512_S1x1024x512_0_0_0) : (⟨S4x1024x512, .f32⟩ : BufTy).Contents (Elt F) → (⟨S1x1024x512, .f32⟩ : BufTy).Contents (Elt F)),
    reshape main_v8 main_v9 rfl shapeCasts_S1x1024x512_S1024x512,
    unary main_v6 main_v10 ((extractStridedSlice S1x512 ![0, 0] · slices_S4x512_S1x512_0_0) : (⟨S4x512, .f32⟩ : BufTy).Contents (Elt F) → (⟨S1x512, .f32⟩ : BufTy).Contents (Elt F)),
    reshape main_v10 main_v11 rfl shapeCasts_S1x512_S512,
    unary main_v11 main_v12 (broadcastInDim S1x512 ![1] bcast_S512_S1x512_1 : (⟨S512, .f32⟩ : BufTy).Contents (Elt F) → (⟨S1x512, .f32⟩ : BufTy).Contents (Elt F)),
    unary main_v12 main_v13 (broadcastInDim S1024x512 ![0, 1] bcast_S1x512_S1024x512_0_1 : (⟨S1x512, .f32⟩ : BufTy).Contents (Elt F) → (⟨S1024x512, .f32⟩ : BufTy).Contents (Elt F)),
    binary main_v9 main_v13 main_v14 (mulf : (⟨S1024x512, .f32⟩ : BufTy).Contents (Elt F) → (⟨S1024x512, .f32⟩ : BufTy).Contents (Elt F) → (⟨S1024x512, .f32⟩ : BufTy).Contents (Elt F)),
    binary main_arg0 main_v14 main_v15 ((fun l r => Host.dotGeneral dot_S65536x512_S1024x512_S65536x1024_1_1_0_0_n_n none l r) : (⟨S65536x512, .f32⟩ : BufTy).Contents (Elt F) → (⟨S1024x512, .f32⟩ : BufTy).Contents (Elt F) → (⟨S65536x1024, .f32⟩ : BufTy).Contents (Elt F)),
    unary main_arg3 main_v16 ((extractStridedSlice S1x1024 ![0, 0] · slices_S4x1024_S1x1024_0_0) : (⟨S4x1024, .f32⟩ : BufTy).Contents (Elt F) → (⟨S1x1024, .f32⟩ : BufTy).Contents (Elt F)),
    reshape main_v16 main_v17 rfl shapeCasts_S1x1024_S1024,
    unary main_v17 main_v18 (broadcastInDim S1x1024 ![1] bcast_S1024_S1x1024_1 : (⟨S1024, .f32⟩ : BufTy).Contents (Elt F) → (⟨S1x1024, .f32⟩ : BufTy).Contents (Elt F)),
    unary main_v18 main_v19 (broadcastInDim S65536x1024 ![0, 1] bcast_S1x1024_S65536x1024_0_1 : (⟨S1x1024, .f32⟩ : BufTy).Contents (Elt F) → (⟨S65536x1024, .f32⟩ : BufTy).Contents (Elt F)),
    binary main_v15 main_v19 main_v20 (addf : (⟨S65536x1024, .f32⟩ : BufTy).Contents (Elt F) → (⟨S65536x1024, .f32⟩ : BufTy).Contents (Elt F) → (⟨S65536x1024, .f32⟩ : BufTy).Contents (Elt F)),
    nullary main_c_0 (constantI S_ 32 64#32),
    unary main_c_0 main_v21 (broadcastInDim S65536 ![] bcast_S_S65536 : (⟨S_, .i32⟩ : BufTy).Contents (Elt F) → (⟨S65536, .i32⟩ : BufTy).Contents (Elt F)),
    binary main_arg1 main_v21 main_v22 (cmpi .eq : (⟨S65536, .i32⟩ : BufTy).Contents (Elt F) → (⟨S65536, .i32⟩ : BufTy).Contents (Elt F) → (⟨S65536, .i1⟩ : BufTy).Contents (Elt F)),
    unary main_v22 main_v23 (uitofp .f32 : (⟨S65536, .i1⟩ : BufTy).Contents (Elt F) → (⟨S65536, .f32⟩ : BufTy).Contents (Elt F)),
    unary main_v23 main_v24 (broadcastInDim S65536x1 ![0] bcast_S65536_S65536x1_0 : (⟨S65536, .f32⟩ : BufTy).Contents (Elt F) → (⟨S65536x1, .f32⟩ : BufTy).Contents (Elt F)),
    unary main_v24 main_v25 (broadcastInDim S65536x1024 ![0, 1] bcast_S65536x1_S65536x1024_0_1 : (⟨S65536x1, .f32⟩ : BufTy).Contents (Elt F) → (⟨S65536x1024, .f32⟩ : BufTy).Contents (Elt F)),
    binary main_v25 main_v20 main_v26 (mulf : (⟨S65536x1024, .f32⟩ : BufTy).Contents (Elt F) → (⟨S65536x1024, .f32⟩ : BufTy).Contents (Elt F) → (⟨S65536x1024, .f32⟩ : BufTy).Contents (Elt F)),
    binary main_v7 main_v26 main_v27 (addf : (⟨S65536x1024, .f32⟩ : BufTy).Contents (Elt F) → (⟨S65536x1024, .f32⟩ : BufTy).Contents (Elt F) → (⟨S65536x1024, .f32⟩ : BufTy).Contents (Elt F)),
    unary main_arg2 main_v28 ((extractStridedSlice S1x1024x512 ![1, 0, 0] · slices_S4x1024x512_S1x1024x512_1_0_0) : (⟨S4x1024x512, .f32⟩ : BufTy).Contents (Elt F) → (⟨S1x1024x512, .f32⟩ : BufTy).Contents (Elt F)),
    reshape main_v28 main_v29 rfl shapeCasts_S1x1024x512_S1024x512,
    unary main_v6 main_v30 ((extractStridedSlice S1x512 ![1, 0] · slices_S4x512_S1x512_1_0) : (⟨S4x512, .f32⟩ : BufTy).Contents (Elt F) → (⟨S1x512, .f32⟩ : BufTy).Contents (Elt F)),
    reshape main_v30 main_v31 rfl shapeCasts_S1x512_S512,
    unary main_v31 main_v32 (broadcastInDim S1x512 ![1] bcast_S512_S1x512_1 : (⟨S512, .f32⟩ : BufTy).Contents (Elt F) → (⟨S1x512, .f32⟩ : BufTy).Contents (Elt F)),
    unary main_v32 main_v33 (broadcastInDim S1024x512 ![0, 1] bcast_S1x512_S1024x512_0_1 : (⟨S1x512, .f32⟩ : BufTy).Contents (Elt F) → (⟨S1024x512, .f32⟩ : BufTy).Contents (Elt F)),
    binary main_v29 main_v33 main_v34 (mulf : (⟨S1024x512, .f32⟩ : BufTy).Contents (Elt F) → (⟨S1024x512, .f32⟩ : BufTy).Contents (Elt F) → (⟨S1024x512, .f32⟩ : BufTy).Contents (Elt F)),
    binary main_arg0 main_v34 main_v35 ((fun l r => Host.dotGeneral dot_S65536x512_S1024x512_S65536x1024_1_1_0_0_n_n none l r) : (⟨S65536x512, .f32⟩ : BufTy).Contents (Elt F) → (⟨S1024x512, .f32⟩ : BufTy).Contents (Elt F) → (⟨S65536x1024, .f32⟩ : BufTy).Contents (Elt F)),
    unary main_arg3 main_v36 ((extractStridedSlice S1x1024 ![1, 0] · slices_S4x1024_S1x1024_1_0) : (⟨S4x1024, .f32⟩ : BufTy).Contents (Elt F) → (⟨S1x1024, .f32⟩ : BufTy).Contents (Elt F)),
    reshape main_v36 main_v37 rfl shapeCasts_S1x1024_S1024,
    unary main_v37 main_v38 (broadcastInDim S1x1024 ![1] bcast_S1024_S1x1024_1 : (⟨S1024, .f32⟩ : BufTy).Contents (Elt F) → (⟨S1x1024, .f32⟩ : BufTy).Contents (Elt F)),
    unary main_v38 main_v39 (broadcastInDim S65536x1024 ![0, 1] bcast_S1x1024_S65536x1024_0_1 : (⟨S1x1024, .f32⟩ : BufTy).Contents (Elt F) → (⟨S65536x1024, .f32⟩ : BufTy).Contents (Elt F)),
    binary main_v35 main_v39 main_v40 (addf : (⟨S65536x1024, .f32⟩ : BufTy).Contents (Elt F) → (⟨S65536x1024, .f32⟩ : BufTy).Contents (Elt F) → (⟨S65536x1024, .f32⟩ : BufTy).Contents (Elt F)),
    nullary main_c_1 (constantI S_ 32 128#32),
    unary main_c_1 main_v41 (broadcastInDim S65536 ![] bcast_S_S65536 : (⟨S_, .i32⟩ : BufTy).Contents (Elt F) → (⟨S65536, .i32⟩ : BufTy).Contents (Elt F)),
    binary main_arg1 main_v41 main_v42 (cmpi .eq : (⟨S65536, .i32⟩ : BufTy).Contents (Elt F) → (⟨S65536, .i32⟩ : BufTy).Contents (Elt F) → (⟨S65536, .i1⟩ : BufTy).Contents (Elt F)),
    unary main_v42 main_v43 (uitofp .f32 : (⟨S65536, .i1⟩ : BufTy).Contents (Elt F) → (⟨S65536, .f32⟩ : BufTy).Contents (Elt F)),
    unary main_v43 main_v44 (broadcastInDim S65536x1 ![0] bcast_S65536_S65536x1_0 : (⟨S65536, .f32⟩ : BufTy).Contents (Elt F) → (⟨S65536x1, .f32⟩ : BufTy).Contents (Elt F)),
    unary main_v44 main_v45 (broadcastInDim S65536x1024 ![0, 1] bcast_S65536x1_S65536x1024_0_1 : (⟨S65536x1, .f32⟩ : BufTy).Contents (Elt F) → (⟨S65536x1024, .f32⟩ : BufTy).Contents (Elt F)),
    binary main_v45 main_v40 main_v46 (mulf : (⟨S65536x1024, .f32⟩ : BufTy).Contents (Elt F) → (⟨S65536x1024, .f32⟩ : BufTy).Contents (Elt F) → (⟨S65536x1024, .f32⟩ : BufTy).Contents (Elt F)),
    binary main_v27 main_v46 main_v47 (addf : (⟨S65536x1024, .f32⟩ : BufTy).Contents (Elt F) → (⟨S65536x1024, .f32⟩ : BufTy).Contents (Elt F) → (⟨S65536x1024, .f32⟩ : BufTy).Contents (Elt F)),
    unary main_arg2 main_v48 ((extractStridedSlice S1x1024x512 ![2, 0, 0] · slices_S4x1024x512_S1x1024x512_2_0_0) : (⟨S4x1024x512, .f32⟩ : BufTy).Contents (Elt F) → (⟨S1x1024x512, .f32⟩ : BufTy).Contents (Elt F)),
    reshape main_v48 main_v49 rfl shapeCasts_S1x1024x512_S1024x512,
    unary main_v6 main_v50 ((extractStridedSlice S1x512 ![2, 0] · slices_S4x512_S1x512_2_0) : (⟨S4x512, .f32⟩ : BufTy).Contents (Elt F) → (⟨S1x512, .f32⟩ : BufTy).Contents (Elt F)),
    reshape main_v50 main_v51 rfl shapeCasts_S1x512_S512,
    unary main_v51 main_v52 (broadcastInDim S1x512 ![1] bcast_S512_S1x512_1 : (⟨S512, .f32⟩ : BufTy).Contents (Elt F) → (⟨S1x512, .f32⟩ : BufTy).Contents (Elt F)),
    unary main_v52 main_v53 (broadcastInDim S1024x512 ![0, 1] bcast_S1x512_S1024x512_0_1 : (⟨S1x512, .f32⟩ : BufTy).Contents (Elt F) → (⟨S1024x512, .f32⟩ : BufTy).Contents (Elt F)),
    binary main_v49 main_v53 main_v54 (mulf : (⟨S1024x512, .f32⟩ : BufTy).Contents (Elt F) → (⟨S1024x512, .f32⟩ : BufTy).Contents (Elt F) → (⟨S1024x512, .f32⟩ : BufTy).Contents (Elt F)),
    binary main_arg0 main_v54 main_v55 ((fun l r => Host.dotGeneral dot_S65536x512_S1024x512_S65536x1024_1_1_0_0_n_n none l r) : (⟨S65536x512, .f32⟩ : BufTy).Contents (Elt F) → (⟨S1024x512, .f32⟩ : BufTy).Contents (Elt F) → (⟨S65536x1024, .f32⟩ : BufTy).Contents (Elt F)) ]

/-- The remaining 34 operations: the third expert's bias, gate and sum, then the fourth expert's. -/
abbrev ops1 : List (HloOp τ sig (Elt F)) :=
  [
    unary main_arg3 main_v56 ((extractStridedSlice S1x1024 ![2, 0] · slices_S4x1024_S1x1024_2_0) : (⟨S4x1024, .f32⟩ : BufTy).Contents (Elt F) → (⟨S1x1024, .f32⟩ : BufTy).Contents (Elt F)),
    reshape main_v56 main_v57 rfl shapeCasts_S1x1024_S1024,
    unary main_v57 main_v58 (broadcastInDim S1x1024 ![1] bcast_S1024_S1x1024_1 : (⟨S1024, .f32⟩ : BufTy).Contents (Elt F) → (⟨S1x1024, .f32⟩ : BufTy).Contents (Elt F)),
    unary main_v58 main_v59 (broadcastInDim S65536x1024 ![0, 1] bcast_S1x1024_S65536x1024_0_1 : (⟨S1x1024, .f32⟩ : BufTy).Contents (Elt F) → (⟨S65536x1024, .f32⟩ : BufTy).Contents (Elt F)),
    binary main_v55 main_v59 main_v60 (addf : (⟨S65536x1024, .f32⟩ : BufTy).Contents (Elt F) → (⟨S65536x1024, .f32⟩ : BufTy).Contents (Elt F) → (⟨S65536x1024, .f32⟩ : BufTy).Contents (Elt F)),
    nullary main_c_2 (constantI S_ 32 256#32),
    unary main_c_2 main_v61 (broadcastInDim S65536 ![] bcast_S_S65536 : (⟨S_, .i32⟩ : BufTy).Contents (Elt F) → (⟨S65536, .i32⟩ : BufTy).Contents (Elt F)),
    binary main_arg1 main_v61 main_v62 (cmpi .eq : (⟨S65536, .i32⟩ : BufTy).Contents (Elt F) → (⟨S65536, .i32⟩ : BufTy).Contents (Elt F) → (⟨S65536, .i1⟩ : BufTy).Contents (Elt F)),
    unary main_v62 main_v63 (uitofp .f32 : (⟨S65536, .i1⟩ : BufTy).Contents (Elt F) → (⟨S65536, .f32⟩ : BufTy).Contents (Elt F)),
    unary main_v63 main_v64 (broadcastInDim S65536x1 ![0] bcast_S65536_S65536x1_0 : (⟨S65536, .f32⟩ : BufTy).Contents (Elt F) → (⟨S65536x1, .f32⟩ : BufTy).Contents (Elt F)),
    unary main_v64 main_v65 (broadcastInDim S65536x1024 ![0, 1] bcast_S65536x1_S65536x1024_0_1 : (⟨S65536x1, .f32⟩ : BufTy).Contents (Elt F) → (⟨S65536x1024, .f32⟩ : BufTy).Contents (Elt F)),
    binary main_v65 main_v60 main_v66 (mulf : (⟨S65536x1024, .f32⟩ : BufTy).Contents (Elt F) → (⟨S65536x1024, .f32⟩ : BufTy).Contents (Elt F) → (⟨S65536x1024, .f32⟩ : BufTy).Contents (Elt F)),
    binary main_v47 main_v66 main_v67 (addf : (⟨S65536x1024, .f32⟩ : BufTy).Contents (Elt F) → (⟨S65536x1024, .f32⟩ : BufTy).Contents (Elt F) → (⟨S65536x1024, .f32⟩ : BufTy).Contents (Elt F)),
    unary main_arg2 main_v68 ((extractStridedSlice S1x1024x512 ![3, 0, 0] · slices_S4x1024x512_S1x1024x512_3_0_0) : (⟨S4x1024x512, .f32⟩ : BufTy).Contents (Elt F) → (⟨S1x1024x512, .f32⟩ : BufTy).Contents (Elt F)),
    reshape main_v68 main_v69 rfl shapeCasts_S1x1024x512_S1024x512,
    unary main_v6 main_v70 ((extractStridedSlice S1x512 ![3, 0] · slices_S4x512_S1x512_3_0) : (⟨S4x512, .f32⟩ : BufTy).Contents (Elt F) → (⟨S1x512, .f32⟩ : BufTy).Contents (Elt F)),
    reshape main_v70 main_v71 rfl shapeCasts_S1x512_S512,
    unary main_v71 main_v72 (broadcastInDim S1x512 ![1] bcast_S512_S1x512_1 : (⟨S512, .f32⟩ : BufTy).Contents (Elt F) → (⟨S1x512, .f32⟩ : BufTy).Contents (Elt F)),
    unary main_v72 main_v73 (broadcastInDim S1024x512 ![0, 1] bcast_S1x512_S1024x512_0_1 : (⟨S1x512, .f32⟩ : BufTy).Contents (Elt F) → (⟨S1024x512, .f32⟩ : BufTy).Contents (Elt F)),
    binary main_v69 main_v73 main_v74 (mulf : (⟨S1024x512, .f32⟩ : BufTy).Contents (Elt F) → (⟨S1024x512, .f32⟩ : BufTy).Contents (Elt F) → (⟨S1024x512, .f32⟩ : BufTy).Contents (Elt F)),
    binary main_arg0 main_v74 main_v75 ((fun l r => Host.dotGeneral dot_S65536x512_S1024x512_S65536x1024_1_1_0_0_n_n none l r) : (⟨S65536x512, .f32⟩ : BufTy).Contents (Elt F) → (⟨S1024x512, .f32⟩ : BufTy).Contents (Elt F) → (⟨S65536x1024, .f32⟩ : BufTy).Contents (Elt F)),
    unary main_arg3 main_v76 ((extractStridedSlice S1x1024 ![3, 0] · slices_S4x1024_S1x1024_3_0) : (⟨S4x1024, .f32⟩ : BufTy).Contents (Elt F) → (⟨S1x1024, .f32⟩ : BufTy).Contents (Elt F)),
    reshape main_v76 main_v77 rfl shapeCasts_S1x1024_S1024,
    unary main_v77 main_v78 (broadcastInDim S1x1024 ![1] bcast_S1024_S1x1024_1 : (⟨S1024, .f32⟩ : BufTy).Contents (Elt F) → (⟨S1x1024, .f32⟩ : BufTy).Contents (Elt F)),
    unary main_v78 main_v79 (broadcastInDim S65536x1024 ![0, 1] bcast_S1x1024_S65536x1024_0_1 : (⟨S1x1024, .f32⟩ : BufTy).Contents (Elt F) → (⟨S65536x1024, .f32⟩ : BufTy).Contents (Elt F)),
    binary main_v75 main_v79 main_v80 (addf : (⟨S65536x1024, .f32⟩ : BufTy).Contents (Elt F) → (⟨S65536x1024, .f32⟩ : BufTy).Contents (Elt F) → (⟨S65536x1024, .f32⟩ : BufTy).Contents (Elt F)),
    nullary main_c_3 (constantI S_ 32 512#32),
    unary main_c_3 main_v81 (broadcastInDim S65536 ![] bcast_S_S65536 : (⟨S_, .i32⟩ : BufTy).Contents (Elt F) → (⟨S65536, .i32⟩ : BufTy).Contents (Elt F)),
    binary main_arg1 main_v81 main_v82 (cmpi .eq : (⟨S65536, .i32⟩ : BufTy).Contents (Elt F) → (⟨S65536, .i32⟩ : BufTy).Contents (Elt F) → (⟨S65536, .i1⟩ : BufTy).Contents (Elt F)),
    unary main_v82 main_v83 (uitofp .f32 : (⟨S65536, .i1⟩ : BufTy).Contents (Elt F) → (⟨S65536, .f32⟩ : BufTy).Contents (Elt F)),
    unary main_v83 main_v84 (broadcastInDim S65536x1 ![0] bcast_S65536_S65536x1_0 : (⟨S65536, .f32⟩ : BufTy).Contents (Elt F) → (⟨S65536x1, .f32⟩ : BufTy).Contents (Elt F)),
    unary main_v84 main_v85 (broadcastInDim S65536x1024 ![0, 1] bcast_S65536x1_S65536x1024_0_1 : (⟨S65536x1, .f32⟩ : BufTy).Contents (Elt F) → (⟨S65536x1024, .f32⟩ : BufTy).Contents (Elt F)),
    binary main_v85 main_v80 main_v86 (mulf : (⟨S65536x1024, .f32⟩ : BufTy).Contents (Elt F) → (⟨S65536x1024, .f32⟩ : BufTy).Contents (Elt F) → (⟨S65536x1024, .f32⟩ : BufTy).Contents (Elt F)),
    binary main_v67 main_v86 main_v87 (addf : (⟨S65536x1024, .f32⟩ : BufTy).Contents (Elt F) → (⟨S65536x1024, .f32⟩ : BufTy).Contents (Elt F) → (⟨S65536x1024, .f32⟩ : BufTy).Contents (Elt F)) ]

/-- All the operations of @main, in order. -/
abbrev ops : List (HloOp τ sig (Elt F)) := ops0 ++ ops1

set_option maxRecDepth 16384 in
/-- The first window of @main is its 60 operations run in order. -/
theorem part0_eq (c : Dev nD) : main_part0 (F := F) c = seq ops0 := rfl

set_option maxRecDepth 16384 in
/-- The second window of @main is its 34 operations run in order, then the return. -/
theorem part1_eq (c : Dev nD) : main_part1 (F := F) c = seq ops1 := rfl

/-- @main runs its two windows in order, which is the whole list run as one line. -/
theorem main_eq (c : Dev nD) : main (F := F) c = seq ops := by
  rw [show (ops : List (HloOp τ sig (Elt F))) = ops0 ++ ops1 from rfl, seq_append, ← part0_eq c, ← part1_eq c]
  rfl

/-- The signature scopes no buffer and no semaphore of the TensorCore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops0_sub : (ops0 : List (HloOp τ sig (Elt F))).Forall fun op => op.bufs ⊆ tcRefs τ sig :=
  ⟨
    nullary_bufs_sub .., nullary_bufs_sub .., unary_bufs_sub .., unary_bufs_sub ..,
    unary_bufs_sub .., unary_bufs_sub .., binary_bufs_sub .., unary_bufs_sub ..,
    nullary_bufs_sub .., unary_bufs_sub .., unary_bufs_sub .., reshape_bufs_sub ..,
    unary_bufs_sub .., reshape_bufs_sub .., unary_bufs_sub .., unary_bufs_sub ..,
    binary_bufs_sub .., binary_bufs_sub .., unary_bufs_sub .., reshape_bufs_sub ..,
    unary_bufs_sub .., unary_bufs_sub .., binary_bufs_sub .., nullary_bufs_sub ..,
    unary_bufs_sub .., binary_bufs_sub .., unary_bufs_sub .., unary_bufs_sub ..,
    unary_bufs_sub .., binary_bufs_sub .., binary_bufs_sub .., unary_bufs_sub ..,
    reshape_bufs_sub .., unary_bufs_sub .., reshape_bufs_sub .., unary_bufs_sub ..,
    unary_bufs_sub .., binary_bufs_sub .., binary_bufs_sub .., unary_bufs_sub ..,
    reshape_bufs_sub .., unary_bufs_sub .., unary_bufs_sub .., binary_bufs_sub ..,
    nullary_bufs_sub .., unary_bufs_sub .., binary_bufs_sub .., unary_bufs_sub ..,
    unary_bufs_sub .., unary_bufs_sub .., binary_bufs_sub .., binary_bufs_sub ..,
    unary_bufs_sub .., reshape_bufs_sub .., unary_bufs_sub .., reshape_bufs_sub ..,
    unary_bufs_sub .., unary_bufs_sub .., binary_bufs_sub .., binary_bufs_sub ..⟩

theorem ops1_sub : (ops1 : List (HloOp τ sig (Elt F))).Forall fun op => op.bufs ⊆ tcRefs τ sig :=
  ⟨
    unary_bufs_sub .., reshape_bufs_sub .., unary_bufs_sub .., unary_bufs_sub ..,
    binary_bufs_sub .., nullary_bufs_sub .., unary_bufs_sub .., binary_bufs_sub ..,
    unary_bufs_sub .., unary_bufs_sub .., unary_bufs_sub .., binary_bufs_sub ..,
    binary_bufs_sub .., unary_bufs_sub .., reshape_bufs_sub .., unary_bufs_sub ..,
    reshape_bufs_sub .., unary_bufs_sub .., unary_bufs_sub .., binary_bufs_sub ..,
    binary_bufs_sub .., unary_bufs_sub .., reshape_bufs_sub .., unary_bufs_sub ..,
    unary_bufs_sub .., binary_bufs_sub .., nullary_bufs_sub .., unary_bufs_sub ..,
    binary_bufs_sub .., unary_bufs_sub .., unary_bufs_sub .., unary_bufs_sub ..,
    binary_bufs_sub .., binary_bufs_sub ..⟩

theorem ops_sub : (ops : List (HloOp τ sig (Elt F))).Forall fun op => op.bufs ⊆ tcRefs τ sig :=
  List.forall_append.mpr ⟨ops0_sub, ops1_sub⟩

/-- The fold of the operations over two lists in a row is the second list's fold from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxHeartbeats 4000000 in
/-- The run of @main, in the sense of `run_seq` (from the memory `m` with every counter zero): on every device the
    result buffer ends at `RefValue.refOut` of the four argument arrays' launch contents, and the argument buffers end
    as they began. The result's term is read off the fold operation by operation (each operation's value at its own
    buffer, what was there at any other) and is `refOut` unfolded, up to a reshape's transport along a reflexive
    equation of element types. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = RefValue.refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v87).trans (by
        unfold RefValue.refOut RefValue.gateCol RefValue.expertOut RefValue.maskedW RefValue.featMask
        rw [after_append]
        after_results_simp
        rfl),
      (h c main_arg0).trans (by rw [after_append]; after_results_simp),
      (h c main_arg1).trans (by rw [after_append]; after_results_simp),
      (h c main_arg2).trans (by rw [after_append]; after_results_simp),
      (h c main_arg3).trans (by rw [after_append]; after_results_simp)⟩)
    (run_seq scopedRefs_eq scopedSems_eq defs main (fun _ => ops) main_eq (fun _ => ops_sub) m ρ)

end Cert.ReferenceIdeal.RefRun

end
-- ==== Proof.RefValue.lean ====
import proofs.«137098_j4801773437021_1_alg».proof.Proof.RefTerm
import proofs.«137098_j4801773437021_1_alg».proof.Proof.MoeSpec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The gate column at an index -/

/-- Entry (n, o) of the gate column of the expert of size `c` is the gate of token n's declared size against `c`: the two
    broadcasts read the comparison at token n, and the broadcast constant reads `c`. -/
theorem gateCol_apply (c : BitVec 32) (fs : IVec S65536 32) (n : Fin 65536) (o : Fin 1024) :
    gateCol (F := Ideal) c fs (ix2 n o) = Cert.Moe.gate (fs (ix1 n)) c := by
  unfold gateCol
  refine (broadcastInDim_apply _ bcast_S65536x1_S65536x1024_0_1 _ (ix2 n o) (ix2 n (0 : Fin 1)) ?_).trans ?_
  · intro a
    match a with
    | ⟨0, _⟩ =>
      show n.val = if (65536 : ℕ) = 1 then 0 else n.val
      rw [if_neg (by decide)]
    | ⟨1, _⟩ =>
      show (0 : ℕ) = if (1 : ℕ) = 1 then 0 else o.val
      rw [if_pos rfl]
  refine (broadcastInDim_apply _ bcast_S65536_S65536x1_0 _ (ix2 n (0 : Fin 1)) (ix1 n) ?_).trans ?_
  · intro a
    match a with
    | ⟨0, _⟩ =>
      show n.val = if (65536 : ℕ) = 1 then 0 else n.val
      rw [if_neg (by decide)]
  rfl

/-! ## The masked weights at an index -/

/-- Entry (o, k) of expert g's masked weights is the weight (g, o, k) times the mask's entry (g, k). -/
theorem maskedW_apply (g : Nat) (hg : g < 4) (hw : S4x1024x512.Slices ![g, 0, 0] S1x1024x512) (hm : S4x512.Slices ![g, 0] S1x512)
    (w : FVec Ideal S4x1024x512 .f32) (mk : FVec Ideal S4x512 .f32) (o : Fin 1024) (k : Fin 512) :
    maskedW g hw hm w mk (ix2 o k) = w (ix3 ⟨g, hg⟩ o k) * mk (ix2 ⟨g, hg⟩ k) := by
  unfold maskedW
  refine (mulf_apply _ _ _).trans ?_
  have e1 : shapeCast S1024x512 (extractStridedSlice S1x1024x512 ![g, 0, 0] w hw) shapeCasts_S1x1024x512_S1024x512 (ix2 o k)
      = w (ix3 ⟨g, hg⟩ o k) := by
    refine (shapeCast_1ab_ab_apply _ shapeCasts_S1x1024x512_S1024x512 o k).trans ?_
    refine extractStridedSlice_apply _ w hw _ (ix3 ⟨g, hg⟩ o k) ?_
    intro a
    match a with
    | ⟨0, _⟩ => show g = g + 0; rfl
    | ⟨1, _⟩ => show o.val = 0 + o.val; rw [Nat.zero_add]
    | ⟨2, _⟩ => show k.val = 0 + k.val; rw [Nat.zero_add]
  have e2 : broadcastInDim S1024x512 ![0, 1] bcast_S1x512_S1024x512_0_1
      (broadcastInDim S1x512 ![1] bcast_S512_S1x512_1
        (shapeCast S512 (extractStridedSlice S1x512 ![g, 0] mk hm) shapeCasts_S1x512_S512)) (ix2 o k)
      = mk (ix2 ⟨g, hg⟩ k) := by
    refine (broadcastInDim_oneRow_apply bcast_S1x512_S1024x512_0_1 _ o k).trans ?_
    refine (broadcastInDim_apply _ bcast_S512_S1x512_1 _ (ix2 (0 : Fin 1) k) (ix1 k) ?_).trans ?_
    · intro a
      match a with
      | ⟨0, _⟩ =>
        show k.val = if (512 : ℕ) = 1 then 0 else k.val
        rw [if_neg (by decide)]
    refine (shapeCast_1a_a_apply _ shapeCasts_S1x512_S512 k).trans ?_
    refine extractStridedSlice_apply _ mk hm _ (ix2 ⟨g, hg⟩ k) ?_
    intro a
    match a with
    | ⟨0, _⟩ => show g = g + 0; rfl
    | ⟨1, _⟩ => show k.val = 0 + k.val; rw [Nat.zero_add]
  rw [e1, e2]

/-! ## The product of the tokens with an expert's masked weights, at an index -/

/-- The reference's contraction: features against features, tokens and output features kept. -/
abbrev dotD := dot_S65536x512_S1024x512_S65536x1024_1_1_0_0_n_n

/-- The left operand's kept axis reads the result's token coordinate. -/
theorem dot_lhs0 (j : S65536x1024.Idx) (q : dotD.contr.Idx) :
    (dotD.lhsIdx j q (0 : Fin 2)).val = (j (0 : Fin 2)).val := rfl
/-- The left operand's contracted axis reads the contraction's coordinate. -/
theorem dot_lhs1 (j : S65536x1024.Idx) (q : dotD.contr.Idx) :
    (dotD.lhsIdx j q (1 : Fin 2)).val = (q ⟨0, by decide⟩).val :=
  DotDims.lhsIdx_val_of_single dotD rfl j q
/-- The right operand's kept axis reads the result's output-feature coordinate. -/
theorem dot_rhs0 (j : S65536x1024.Idx) (q : dotD.contr.Idx) :
    (dotD.rhsIdx j q (0 : Fin 2)).val = (j (1 : Fin 2)).val := rfl
/-- The right operand's contracted axis reads the contraction's coordinate. -/
theorem dot_rhs1 (j : S65536x1024.Idx) (q : dotD.contr.Idx) :
    (dotD.rhsIdx j q (1 : Fin 2)).val = (q ⟨0, by decide⟩).val :=
  DotDims.rhsIdx_val_of_single dotD rfl j q

/-- Entry (n, o) of the product is the sum over the 512 features of token n's entry times row o's entry. -/
theorem dot_apply (x : FVec Ideal S65536x512 .f32) (m : FVec Ideal S1024x512 .f32) (n : Fin 65536) (o : Fin 1024) :
    Host.dotGeneral dotD none x m (ix2 n o) = ∑ k : Fin 512, x (ix2 n k) * m (ix2 o k) := by
  refine (Ideal.dotGeneral_apply dotD none .single x m (ix2 n o)).trans ?_
  refine (Equiv.sum_comp (contrEquiv1 dotD 512 rfl rfl).symm _).symm.trans ?_
  refine Finset.sum_congr rfl fun k _ => ?_
  have e1 : dotD.lhsIdx (ix2 n o) ((contrEquiv1 dotD 512 rfl rfl).symm k) = ix2 n k := by
    funext a
    refine Fin.ext ?_
    match a with
    | ⟨0, _⟩ => exact dot_lhs0 _ _
    | ⟨1, _⟩ => exact (dot_lhs1 _ _).trans (contrEquiv1_symm_val dotD 512 rfl rfl k)
  have e2 : dotD.rhsIdx (ix2 n o) ((contrEquiv1 dotD 512 rfl rfl).symm k) = ix2 o k := by
    funext a
    refine Fin.ext ?_
    match a with
    | ⟨0, _⟩ => exact dot_rhs0 _ _
    | ⟨1, _⟩ => exact (dot_rhs1 _ _).trans (contrEquiv1_symm_val dotD 512 rfl rfl k)
  rw [e1, e2]

/-! ## One expert's output at an index -/

/-- Entry (n, o) of expert g's output: token n's row against row o of the masked weights, plus the bias (g, o). -/
theorem expertOut_apply (g : Nat) (hg : g < 4) (hw : S4x1024x512.Slices ![g, 0, 0] S1x1024x512) (hm : S4x512.Slices ![g, 0] S1x512)
    (hb : S4x1024.Slices ![g, 0] S1x1024)
    (x : FVec Ideal S65536x512 .f32) (w : FVec Ideal S4x1024x512 .f32) (b : FVec Ideal S4x1024 .f32) (mk : FVec Ideal S4x512 .f32)
    (n : Fin 65536) (o : Fin 1024) :
    expertOut g hw hm hb x w b mk (ix2 n o)
      = (∑ k : Fin 512, x (ix2 n k) * maskedW g hw hm w mk (ix2 o k)) + b (ix2 ⟨g, hg⟩ o) := by
  unfold expertOut
  refine (addf_apply _ _ _).trans ?_
  have e2 : broadcastInDim S65536x1024 ![0, 1] bcast_S1x1024_S65536x1024_0_1
      (broadcastInDim S1x1024 ![1] bcast_S1024_S1x1024_1
        (shapeCast S1024 (extractStridedSlice S1x1024 ![g, 0] b hb) shapeCasts_S1x1024_S1024)) (ix2 n o)
      = b (ix2 ⟨g, hg⟩ o) := by
    refine (broadcastInDim_oneRow_apply bcast_S1x1024_S65536x1024_0_1 _ n o).trans ?_
    refine (broadcastInDim_apply _ bcast_S1024_S1x1024_1 _ (ix2 (0 : Fin 1) o) (ix1 o) ?_).trans ?_
    · intro a
      match a with
      | ⟨0, _⟩ =>
        show o.val = if (1024 : ℕ) = 1 then 0 else o.val
        rw [if_neg (by decide)]
    refine (shapeCast_1a_a_apply _ shapeCasts_S1x1024_S1024 o).trans ?_
    refine extractStridedSlice_apply _ b hb _ (ix2 ⟨g, hg⟩ o) ?_
    intro a
    match a with
    | ⟨0, _⟩ => show g = g + 0; rfl
    | ⟨1, _⟩ => show o.val = 0 + o.val; rw [Nat.zero_add]
  exact congrArg₂ (· + ·) (dot_apply x (maskedW g hw hm w mk) n o) e2

/-! ## One gated expert term at an index -/

/-- Entry (n, o) of the gated output of expert g (size `c`) is the specification's term for that expert. -/
theorem term_apply (g : Nat) (hg : g < 4) (hw : S4x1024x512.Slices ![g, 0, 0] S1x1024x512) (hm : S4x512.Slices ![g, 0] S1x512)
    (hb : S4x1024.Slices ![g, 0] S1x1024) (c : BitVec 32)
    (x : FVec Ideal S65536x512 .f32) (fs : IVec S65536 32) (w : FVec Ideal S4x1024x512 .f32) (b : FVec Ideal S4x1024 .f32)
    (mk : FVec Ideal S4x512 .f32) (n : Fin 65536) (o : Fin 1024) :
    mulf (gateCol (F := Ideal) c fs) (expertOut g hw hm hb x w b mk) (ix2 n o)
      = Cert.Moe.expertTerm (fun k => x (ix2 n k)) (fs (ix1 n)) c
          (fun k => w (ix3 ⟨g, hg⟩ o k) * mk (ix2 ⟨g, hg⟩ k)) (b (ix2 ⟨g, hg⟩ o)) := by
  refine (mulf_apply _ _ _).trans ?_
  unfold Cert.Moe.expertTerm
  refine congrArg₂ (· * ·) (gateCol_apply c fs n o) ?_
  refine (expertOut_apply g hg hw hm hb x w b mk n o).trans ?_
  refine congrArg (· + b (ix2 ⟨g, hg⟩ o)) ?_
  exact Finset.sum_congr rfl fun k _ => congrArg (x (ix2 n k) * ·) (maskedW_apply g hg hw hm w mk o k)

/-! ## The reference's result

At entry (n, o) the four additions read through, each gated expert output is the specification's term, and the zero
array's entry is the same float zero the specification starts from. -/

theorem refOut_eq (x : FVec Ideal S65536x512 .f32) (fs : IVec S65536 32) (w : FVec Ideal S4x1024x512 .f32) (b : FVec Ideal S4x1024 .f32) :
    refOut (F := Ideal) x fs w b = Cert.Moe.moe x fs w b (featMask (F := Ideal)) := by
  funext i
  obtain ⟨n, o, rfl⟩ : ∃ (n : Fin 65536) (o : Fin 1024), i = ix2 n o := ⟨i 0, i 1, eq_ix2 i⟩
  rw [Cert.Moe.moe_apply]
  unfold refOut Cert.Moe.rowOut
  refine (addf_apply _ _ _).trans (congrArg₂ (· + ·) ?_
    (term_apply 3 (by decide) _ _ _ 512#32 x fs w b featMask n o))
  refine (addf_apply _ _ _).trans (congrArg₂ (· + ·) ?_
    (term_apply 2 (by decide) _ _ _ 256#32 x fs w b featMask n o))
  refine (addf_apply _ _ _).trans (congrArg₂ (· + ·) ?_
    (term_apply 1 (by decide) _ _ _ 128#32 x fs w b featMask n o))
  refine (addf_apply _ _ _).trans (congrArg₂ (· + ·) ?_
    (term_apply 0 (by decide) _ _ _ 64#32 x fs w b featMask n o))
  rfl

end Cert.ReferenceIdeal.RefValue

end
-- ==== Proof.lean ====
/-
  A masked mixture-of-experts linear layer, kernel against reference, over the extended reals.

  Every token row x_n (512 features) carries a declared input size f_n; expert g ∈ {0,1,2,3} has input size
  c_g ∈ {64, 128, 256, 512}, weights W_g [1024, 512] and bias b_g [1024]. Both programs compute, for token n and output
  feature o,

      (((0 + s_0 · y_0) + s_1 · y_1) + s_2 · y_2) + s_3 · y_3,
      y_g = (∑_k x_n[k] · (W_g[o, k] · mask[g, k])) + b_g[o],   s_g = [f_n = c_g] as a float,   mask[g, k] = [k < c_g] as a float,

  with the same feature mask (built by the same operations in both), the same gates, and the additions in the same
  order. The kernel narrows the tokens and the masked weights to bf16 before its matrix products — the identity on
  extended reals — and walks the tokens 1024 rows at a time over a grid of 64 points; the reference does the four
  products on all 65536 rows at once. Since the two expressions agree term for term (`Cert.Moe.moe`, Proof/MoeSpec.lean),
  the only facts of arithmetic used are `0 + s = s` inside the library's reading of a matrix product into a zero
  accumulator and the commutation of a finite sum with a re-indexing of its index set; nothing needs the inputs finite,
  and the precondition is never opened.

  The pieces: the kernel's staged arrays as terms of the arguments (Proof/KerHost.lean); its stored value at an entry
  (Proof/KerPayload.lean); from its 64 blocks to the result array (Proof/KerBlocks.lean); the reference's result term
  in stages (Proof/RefTerm.lean), its run (Proof/RefRun.lean) and that term read at an entry (Proof/RefValue.lean).
  The kernel's idealization rewrote no operation, so `preserves` has nothing to state.
-/
import proofs.«137098_j4801773437021_1_alg».proof.Defs
import proofs.«137098_j4801773437021_1_alg».proof.Proof.Gen.Kernel
import proofs.«137098_j4801773437021_1_alg».proof.Proof.Gen.Kernel.Skeleton
import proofs.«137098_j4801773437021_1_alg».proof.Proof.Gen.Kernel.Launch
import proofs.«137098_j4801773437021_1_alg».proof.Proof.Gen.Kernel.Points
import proofs.«137098_j4801773437021_1_alg».proof.Proof.Gen.Kernel.Frame
import proofs.«137098_j4801773437021_1_alg».proof.Proof.Gen.KernelIdeal
import proofs.«137098_j4801773437021_1_alg».proof.Proof.Gen.KernelIdeal.Skeleton
import proofs.«137098_j4801773437021_1_alg».proof.Proof.Gen.KernelIdeal.Launch
import proofs.«137098_j4801773437021_1_alg».proof.Proof.Gen.KernelIdeal.Points
import proofs.«137098_j4801773437021_1_alg».proof.Proof.Gen.KernelIdeal.Frame
import proofs.«137098_j4801773437021_1_alg».proof.Proof.Gen.KernelIdeal.Value
import proofs.«137098_j4801773437021_1_alg».proof.Proof.Gen.ReferenceIdeal
import proofs.«137098_j4801773437021_1_alg».proof.Proof.Gen.Pre_finite_inputs
import proofs.«137098_j4801773437021_1_alg».proof.Proof.KerBlocks
import proofs.«137098_j4801773437021_1_alg».proof.Proof.RefRun
import proofs.«137098_j4801773437021_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read at the ideal instance. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The two programs build the feature mask by the same operations on the same constants. -/
theorem mask_eq : Cert.KernelIdeal.KerValue.featMask (F := Ideal) = Cert.ReferenceIdeal.RefValue.featMask (F := Ideal) := rfl

/-- From memories that agree on the arguments, the kernel's result array (its 64 blocks of `moe`) and the
    reference's result (`refOut`, which is `moe` entry by entry) are one array. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact (Cert.ReferenceIdeal.RefValue.refOut_eq _ _ _ _).trans
    (congrArg (Cert.Moe.moe _ _ _ _) mask_eq.symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
